-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x512x512 : Shape := ⟨4, ![16, 8, 512, 512]⟩
abbrev S_ : Shape := ⟨0, ![]⟩

class Facts : Prop where
  bcast_S_S16x8x512x512 : S_.BroadcastsInDim S16x8x512x512 (![] : Fin 0 → Fin S16x8x512x512.rank)
  reducesTo_S16x8x512x512_S_d0_1_2_3 : S16x8x512x512.ReducesTo [0, 1, 2, 3] S_
  h_S_ : 0 < S_.numel

variable [Facts]

def fn {F : FTy → Type} [FloatOps F] (main_arg0 : FVec F S16x8x512x512 .f32) : IVec S_ 1 :=
  let main_v0 : FVec F S16x8x512x512 .f32 := Host.absf main_arg0
  let main_cst : FVec F S_ .f32 := constant S_ .f32 0x7F800000#32
  let main_v1 : FVec F S16x8x512x512 .f32 := broadcastInDim S16x8x512x512 ![] bcast_S_S16x8x512x512 main_cst
  let main_v2 : IVec S16x8x512x512 1 := cmpf .olt main_v0 main_v1
  let main_c : IVec S_ 1 := constantI S_ 1 1#1
  let main_v3 : IVec S_ 1 := (fun x v => Host.reduce IntOp.andi x v reducesTo_S16x8x512x512_S_d0_1_2_3 h_S_) main_v2 main_c
  main_v3
-- ==== Kernel.lean ====
abbrev S16x8x512x512 : Shape := ⟨4, ![16, 8, 512, 512]⟩
abbrev S128x512x512 : Shape := ⟨3, ![128, 512, 512]⟩
abbrev S2x8x128 : Shape := ⟨3, ![2, 8, 128]⟩
abbrev S2x512x512 : Shape := ⟨3, ![2, 512, 512]⟩
abbrev S1x8x128 : Shape := ⟨3, ![1, 8, 128]⟩
abbrev S2x1x512 : Shape := ⟨3, ![2, 1, 512]⟩
abbrev S2x511x512 : Shape := ⟨3, ![2, 511, 512]⟩
abbrev S2x512x1 : Shape := ⟨3, ![2, 512, 1]⟩
abbrev S2x512x511 : Shape := ⟨3, ![2, 512, 511]⟩
abbrev S2x512 : Shape := ⟨2, ![2, 512]⟩
abbrev S2 : Shape := ⟨1, ![2]⟩
abbrev S1x2 : Shape := ⟨2, ![1, 2]⟩
abbrev S1 : Shape := ⟨1, ![1]⟩
abbrev S1x1 : Shape := ⟨2, ![1, 1]⟩
abbrev S_ : Shape := ⟨0, ![]⟩

abbrev nBuf : Space → Nat
  | .hbm => 7
  | .vmem => 4
  | .smem => 0
  | _ => 0

abbrev bufTy : (tb : Table) → Fin (tcTables nBuf tb) → BufTy
  | .hbm, ⟨0, _⟩ => ⟨S16x8x512x512, .f32⟩
  | .hbm, ⟨1, _⟩ => ⟨S128x512x512, .f32⟩
  | .hbm, ⟨2, _⟩ => ⟨S2x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S2x512x512, .f32⟩
  | .local _ .vmem, ⟨1, _⟩ => ⟨S2x512x512, .f32⟩
  | .local _ .vmem, ⟨2, _⟩ => ⟨S1x8x128, .f32⟩
  | .local _ .vmem, ⟨3, _⟩ => ⟨S1x8x128, .f32⟩
  | _, _ => ⟨S16x8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S16x8x512x512_S128x512x512 : S16x8x512x512.ShapeCasts S128x512x512
  inb_S1x8x128_S1x8x128_0_0_0 : ∀ a, (![0, 0, 0] : Fin 3 → Nat) a + S1x8x128.size a ≤ S1x8x128.size a
  h_S1x8x128 : 0 < S1x8x128.numel
  inb_S2x512x512_S2x512x512_0_0_0 : ∀ a, (![0, 0, 0] : Fin 3 → Nat) a + S2x512x512.size a ≤ S2x512x512.size a
  h_S2x512x512 : 0 < S2x512x512.numel
  shapeCasts_S2x512x512_S2x512x512 : S2x512x512.ShapeCasts S2x512x512
  slices_S2x512x512_o0_0_0_S2x1x512 : S2x512x512.Slices ![0, 0, 0] S2x1x512
  slices_S2x512x512_o0_0_0_S2x511x512 : S2x512x512.Slices ![0, 0, 0] S2x511x512
  concatenates_S2x1x512_S2x511x512_S2x512x512_d1 : Shape.Concatenates [S2x1x512, S2x511x512] S2x512x512 1
  slices_S2x512x512_o0_0_0_S2x512x1 : S2x512x512.Slices ![0, 0, 0] S2x512x1
  slices_S2x512x512_o0_0_0_S2x512x511 : S2x512x512.Slices ![0, 0, 0] S2x512x511
  concatenates_S2x512x1_S2x512x511_S2x512x512_d2 : Shape.Concatenates [S2x512x1, S2x512x511] S2x512x512 2
  slices_S2x512x512_o0_1_0_S2x511x512 : S2x512x512.Slices ![0, 1, 0] S2x511x512
  slices_S2x512x512_o0_511_0_S2x1x512 : S2x512x512.Slices ![0, 511, 0] S2x1x512
  concatenates_S2x511x512_S2x1x512_S2x512x512_d1 : Shape.Concatenates [S2x511x512, S2x1x512] S2x512x512 1
  slices_S2x512x512_o0_0_1_S2x512x511 : S2x512x512.Slices ![0, 0, 1] S2x512x511
  slices_S2x512x512_o0_0_511_S2x512x1 : S2x512x512.Slices ![0, 0, 511] S2x512x1
  concatenates_S2x512x511_S2x512x1_S2x512x512_d2 : Shape.Concatenates [S2x512x511, S2x512x1] S2x512x512 2
  reduces_S2x512x512_S2x512 : S2x512x512.Reduces [2] S2x512
  reduces_S2x512_S2 : S2x512.Reduces [1] S2
  shapeCasts_S2_S1x2 : S2.ShapeCasts S1x2
  reduces_S1x2_S1 : S1x2.Reduces [1] S1
  shapeCasts_S1_S1x1 : S1.ShapeCasts S1x1
  inpos_S1x1_p0_0 : ∀ a, (![0, 0] : Fin 2 → Nat) a < S1x1.size a
  iota_S1x8x128_d1_w32 : S1x8x128.Iotas .tc 32 [1]
  iota_S1x8x128_d2_w32 : S1x8x128.Iotas .tc 32 [2]
  shapeCasts_S1x8x128_S1x8x128 : S1x8x128.ShapeCasts S1x8x128
  reducesTo_S2x8x128_S_d0_1_2 : S2x8x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x512.size a ≤ S128x512x512.size a
  hwx0_0 : ∀ i : grid0.Coords, EltTy.bits .f32 = 32 ∨ (Rect.block (s := S128x512x512) S2x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128.size a ≤ S2x8x128.size a
  hwx0_1 : ∀ i : grid0.Coords, EltTy.bits .f32 = 32 ∨ (Rect.block (s := S2x8x128) S1x8x128.size (cc0_transform_1 i) (hinb0_1 i)).WholeWords (EltTy.packing .f32)

variable [Facts₀]

abbrev win0_0 : Pipeline.Window sig grid0 :=
  Pipeline.Window.ofSpec (Memref.whole main_v0) S2x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x8x512x512 : Shape := ⟨4, ![16, 8, 512, 512]⟩
abbrev S_ : Shape := ⟨0, ![]⟩
abbrev S16x8x1x512 : Shape := ⟨4, ![16, 8, 1, 512]⟩
abbrev S16x8x513x512 : Shape := ⟨4, ![16, 8, 513, 512]⟩
abbrev S16x8x513x1 : Shape := ⟨4, ![16, 8, 513, 1]⟩
abbrev S16x8x513x513 : Shape := ⟨4, ![16, 8, 513, 513]⟩

abbrev nBuf : Space → Nat
  | .hbm => 35
  | .vmem => 0
  | .smem => 0
  | _ => 0

abbrev bufTy : (tb : Table) → Fin (tcTables nBuf tb) → BufTy
  | .hbm, ⟨0, _⟩ => ⟨S16x8x512x512, .f32⟩
  | .hbm, ⟨1, _⟩ => ⟨S_, .i32⟩
  | .hbm, ⟨2, _⟩ => ⟨S16x8x1x512, .f32⟩
  | .hbm, ⟨3, _⟩ => ⟨S16x8x1x512, .f32⟩
  | .hbm, ⟨4, _⟩ => ⟨S16x8x1x512, .f32⟩
  | .hbm, ⟨5, _⟩ => ⟨S16x8x513x512, .f32⟩
  | .hbm, ⟨6, _⟩ => ⟨S16x8x1x512, .f32⟩
  | .hbm, ⟨7, _⟩ => ⟨S16x8x513x1, .f32⟩
  | .hbm, ⟨8, _⟩ => ⟨S16x8x513x1, .f32⟩
  | .hbm, ⟨9, _⟩ => ⟨S16x8x513x1, .f32⟩
  | .hbm, ⟨10, _⟩ => ⟨S16x8x513x513, .f32⟩
  | .hbm, ⟨11, _⟩ => ⟨S16x8x513x1, .f32⟩
  | .hbm, ⟨12, _⟩ => ⟨S_, .f32⟩
  | .hbm, ⟨13, _⟩ => ⟨S_, .f32⟩
  | .hbm, ⟨14, _⟩ => ⟨S16x8x512x512, .f32⟩
  | .hbm, ⟨15, _⟩ => ⟨S_, .i32⟩
  | .hbm, ⟨16, _⟩ => ⟨S16x8x1x512, .f32⟩
  | .hbm, ⟨17, _⟩ => ⟨S16x8x1x512, .f32⟩
  | .hbm, ⟨18, _⟩ => ⟨S16x8x1x512, .f32⟩
  | .hbm, ⟨19, _⟩ => ⟨S16x8x1x512, .f32⟩
  | .hbm, ⟨20, _⟩ => ⟨S16x8x513x512, .f32⟩
  | .hbm, ⟨21, _⟩ => ⟨S16x8x513x1, .f32⟩
  | .hbm, ⟨22, _⟩ => ⟨S16x8x513x1, .f32⟩
  | .hbm, ⟨23, _⟩ => ⟨S16x8x513x1, .f32⟩
  | .hbm, ⟨24, _⟩ => ⟨S16x8x513x1, .f32⟩
  | .hbm, ⟨25, _⟩ => ⟨S16x8x513x513, .f32⟩
  | .hbm, ⟨26, _⟩ => ⟨S_, .f32⟩
  | .hbm, ⟨27, _⟩ => ⟨S_, .f32⟩
  | .hbm, ⟨28, _⟩ => ⟨S16x8x512x512, .f32⟩
  | .hbm, ⟨29, _⟩ => ⟨S16x8x512x512, .f32⟩
  | .hbm, ⟨30, _⟩ => ⟨S16x8x512x512, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S16x8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_v0 : Ref sig .tc := ⟨.hbm, 10, rfl⟩
abbrev main_call0_v9 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_v3 : Ref sig .tc := ⟨.hbm, 25, rfl⟩
abbrev main_cst_1 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_2 : Ref sig .tc := ⟨.hbm, 31, rfl⟩
abbrev main_v8 : Ref sig .tc := ⟨.hbm, 32, rfl⟩
abbrev main_cst_3 : Ref sig .tc := ⟨.hbm, 33, rfl⟩
abbrev main_v9 : Ref sig .tc := ⟨.hbm, 34, rfl⟩

abbrev nD : Nat := 1
abbrev τ : Topo := Topo.v7x

variable {F : FTy → Type} [FloatOps F]

class Facts₀ : Prop where
  slices_S16x8x512x512_S16x8x1x512_0_0_0_0 : S16x8x512x512.Slices ![0, 0, 0, 0] S16x8x1x512
  concatenates_S16x8x1x512_S16x8x512x512_S16x8x513x512_d2 : Shape.Concatenates [S16x8x1x512, S16x8x512x512] S16x8x513x512 2
  slices_S16x8x513x512_S16x8x1x512_0_0_512_0 : S16x8x513x512.Slices ![0, 0, 512, 0] S16x8x1x512
  slices_S16x8x513x512_S16x8x513x1_0_0_0_0 : S16x8x513x512.Slices ![0, 0, 0, 0] S16x8x513x1
  concatenates_S16x8x513x1_S16x8x513x512_S16x8x513x513_d3 : Shape.Concatenates [S16x8x513x1, S16x8x513x512] S16x8x513x513 3
  slices_S16x8x513x513_S16x8x513x1_0_0_0_512 : S16x8x513x513.Slices ![0, 0, 0, 512] S16x8x513x1
  bcast_S_S_ : S_.BroadcastsInDim S_ (![] : Fin 0 → Fin S_.rank)
  reduceWindows_S16x8x513x513_S16x8x512x512_w1s1p0_0_w1s1p0_0_w2s1p0_0_w2s1p0_0 : S16x8x513x513.ReduceWindows (![1, 1, 2, 2] : Fin 4 → Nat) ![1, 1, 1, 1] ![0, 0, 0, 0] ![0, 0, 0, 0] S16x8x512x512
  h_S_ : 0 < S_.numel
  slices_S16x8x512x512_S16x8x1x512_0_0_511_0 : S16x8x512x512.Slices ![0, 0, 511, 0] S16x8x1x512
  concatenates_S16x8x512x512_S16x8x1x512_S16x8x513x512_d2 : Shape.Concatenates [S16x8x512x512, S16x8x1x512] S16x8x513x512 2
  slices_S16x8x513x512_S16x8x513x1_0_0_0_511 : S16x8x513x512.Slices ![0, 0, 0, 511] S16x8x513x1
  concatenates_S16x8x513x512_S16x8x513x1_S16x8x513x513_d3 : Shape.Concatenates [S16x8x513x512, S16x8x513x1] S16x8x513x513 3
  reducesTo_S16x8x512x512_S_d0_1_2_3 : S16x8x512x512.ReducesTo [0, 1, 2, 3] S_

variable [Facts₀]

class Facts : Prop extends Facts₀ where

variable [Facts]
-- ==== Proof.KernelPieces.lean ====
/-
  What one grid step leaves in the accumulator block, as a value. At the first step of a half the block is
  reset to zero and the step's masked total is added to that zero; at every other step the masked total is
  added to what the step before left.
-/
import proofs.«138548_j24189255811164_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

theorem hz : (![0, 0, 0] : Fin 3 → Nat) = fun _ => 0 := funext fun a => by fin_cases a <;> rfl

/-- A step that is not the first of its half: the block holding `xo` ends at `xo` plus the masked total of
    the input block `x`. -/
theorem out_B (c : Dev nD) (i : grid0.Coords) (a2 : Memref sig .tc .vmem S2x512x512 .f32) (h2 : a2.IsWhole)
    (a3 : Memref sig .tc .vmem S1x8x128 .f32) (h3 : a3.IsWhole) (hc : ¬cond0_0 i) (x : Vec F S2x512x512 .f32)
    (xo : Vec F S1x8x128 .f32) :
    out0_B_1 c i a2 h2 a3 h3 hc x xo = k0_pay1 k0_pay3 (k0_pay4 x) k0_pay5 xo := by
  unfold out0_B_1
  rw [View.read_writes_eq_canon _ _ _ (cover0_B_1 c i a2 h2 a3 h3 hc x xo)]
  unfold kernelRun0_B
  dsimp only
  sl_unfold_words
  rw [View.canon_unit_zero hz]
  simp only [View.readAt_eq_ld, h2.read_unread, h3.read_unread, View.ld_unit_zero (S := S2x512x512) hz,
    View.ld_unit_zero (S := S1x8x128) hz]

/-- The first step of a half: the block is reset, and ends at zero plus the masked total. -/
theorem out_A (c : Dev nD) (i : grid0.Coords) (a2 : Memref sig .tc .vmem S2x512x512 .f32) (h2 : a2.IsWhole)
    (a3 : Memref sig .tc .vmem S1x8x128 .f32) (h3 : a3.IsWhole) (hc : cond0_0 i) (x : Vec F S2x512x512 .f32) :
    out0_A_1 c i a2 h2 a3 h3 hc x = k0_pay1 k0_pay3 (k0_pay4 x) k0_pay5 k0_pay2 := by
  unfold out0_A_1
  rw [View.read_writes_eq_canon _ _ _ (cover0_A_1 c i a2 h2 a3 h3 hc x)]
  unfold kernelRun0_A
  dsimp only
  sl_unfold_words
  rw [View.canon_cons_unit_zero (S := S1x8x128) hz, View.readCov_unit_zero (S := S1x8x128) _ hz]
  simp only [View.readAt_eq_ld, h2.read_unread, View.ld_unit_zero (S := S2x512x512) hz,
    View.ld_unit_zero (S := S1x8x128) hz]

end Cert.KernelIdeal.KValue

end
-- ==== Proof.Opening.lean ====
/-
  The mathematics both programs compute, over the extended reals.

  One map is a 512 × 512 array `f`. Its grey opening by a 2 × 2 flat element is an erosion followed by a
  dilation: the erosion at (h, w) is the minimum of `f` over the window {h-1, h} × {w-1, w}, the dilation at
  (h, w) the maximum of the eroded map over {h, h+1} × {w, w+1}, a coordinate that leaves the map clamped to
  the edge (a one-pixel symmetric padding repeats the edge pixel). `sqd` is the squared difference between
  the map and its opening, `mapSum` its sum over the map; `blockSum` adds two maps, `total4` all 16 × 8.
-/
import Idealize.ShloMosaic.PureOps.Ideal
import Idealize.ShloMosaic.Lib.ValueIdx

noncomputable section

namespace Cert.Opening

open Idealize.ShloMosaic Idealize.ShloMosaic.ValueIdx

/-- The previous row or column, clamped at the low edge. -/
def prv (i : Fin 512) : Fin 512 := ⟨i.val - 1, by have := i.isLt; omega⟩

/-- The next row or column, clamped at the high edge. -/
def nxt (i : Fin 512) : Fin 512 := ⟨min (i.val + 1) 511, by omega⟩

/-- Erosion: the minimum over the window {h-1, h} × {w-1, w}. -/
def ero (f : Fin 512 → Fin 512 → EReal) (h w : Fin 512) : EReal :=
  min (min (f h w) (f h (prv w))) (min (f (prv h) w) (f (prv h) (prv w)))

/-- Dilation: the maximum over the window {h, h+1} × {w, w+1}. -/
def dil (e : Fin 512 → Fin 512 → EReal) (h w : Fin 512) : EReal :=
  max (max (e h w) (e h (nxt w))) (max (e (nxt h) w) (e (nxt h) (nxt w)))

/-- The squared difference between a map and its opening. -/
def sqd (f : Fin 512 → Fin 512 → EReal) (h w : Fin 512) : EReal :=
  (f h w - dil (ero f) h w) * (f h w - dil (ero f) h w)

/-- Its sum over one map. -/
def mapSum (f : Fin 512 → Fin 512 → EReal) : EReal := ∑ h : Fin 512, ∑ w : Fin 512, sqd f h w

/-- Over a block of two maps. -/
def blockSum (x : (⟨3, ![2, 512, 512]⟩ : Shape).Idx → EReal) : EReal :=
  ∑ n : Fin 2, mapSum (fun h w => x (ix3 n h w))

/-- Over all 16 × 8 maps. -/
def total4 (x : (⟨4, ![16, 8, 512, 512]⟩ : Shape).Idx → EReal) : EReal :=
  ∑ b : Fin 16, ∑ c : Fin 8, mapSum (fun h w => x (ix4 b c h w))

end Cert.Opening

end
-- ==== Proof.SumIdx.lean ====
/-
  Sums over an index type of rank three or four as iterated sums over its coordinates, and the regrouping of a
  sum over 128 maps: counted as 2 × 32 × 2 (two halves, thirty-two steps, two maps a step) or as 16 × 8, it is
  the same sum, because both enumerate 0 … 127 once.
-/
import Idealize.ShloMosaic.Lib.ValueIdx

noncomputable section

namespace Cert.SumIdx

open Idealize.ShloMosaic Idealize.ShloMosaic.ValueIdx

/-- A rank-3 index set is the product of its three coordinate ranges. -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A rank-4 index set is the product of its four coordinate ranges. -/
private def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  -- re-index through the bijection with the triple product, then split the product sum twice
  rw [← Equiv.sum_comp (idxEquiv3 (n0 := n0) (n1 := n1) (n2 := n2)).symm f, Fintype.sum_prod_type]
  refine Finset.sum_congr rfl fun a _ => ?_
  rw [Fintype.sum_prod_type]
  rfl

theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  -- re-index through the bijection with the fourfold product, then split the product sum three times
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Map number of (half, step, map in the step). -/
def mapOf (core : Fin 2) (j : Fin 32) (n : Fin 2) : Fin 128 :=
  ⟨(core.val * 32 + j.val) * 2 + n.val, by have := core.isLt; have := j.isLt; have := n.isLt; omega⟩

/-- Map number of (batch, channel). -/
def mapOf2 (b : Fin 16) (c : Fin 8) : Fin 128 := ⟨b.val * 8 + c.val, by have := b.isLt; have := c.isLt; omega⟩

/-- (half, step, map in the step) ↦ map number is a bijection onto 0 … 127: the inverse reads the mixed-radix
    digits k / 64, (k / 2) mod 32, k mod 2. -/
private def equivOf : Fin 2 × Fin 32 × Fin 2 ≃ Fin 128 where
  toFun p := mapOf p.1 p.2.1 p.2.2
  invFun k := (⟨k.val / 64, by have := k.isLt; omega⟩, ⟨k.val / 2 % 32, by omega⟩, ⟨k.val % 2, by omega⟩)
  left_inv := by
    rintro ⟨a, b, c⟩
    have := a.isLt; have := b.isLt; have := c.isLt
    simp only [mapOf, Prod.mk.injEq]
    refine ⟨Fin.ext ?_, Fin.ext ?_, Fin.ext ?_⟩ <;> simp only [] <;> omega
  right_inv := by
    intro k
    have := k.isLt
    apply Fin.ext
    simp only [mapOf]
    omega

/-- (batch, channel) ↦ map number is a bijection onto 0 … 127: the inverse reads k / 8 and k mod 8. -/
private def equivOf2 : Fin 16 × Fin 8 ≃ Fin 128 where
  toFun p := mapOf2 p.1 p.2
  invFun k := (⟨k.val / 8, by have := k.isLt; omega⟩, ⟨k.val % 8, by omega⟩)
  left_inv := by
    rintro ⟨b, c⟩
    have := b.isLt; have := c.isLt
    simp only [mapOf2, Prod.mk.injEq]
    refine ⟨Fin.ext ?_, Fin.ext ?_⟩ <;> simp only [] <;> omega
  right_inv := by
    intro k
    have := k.isLt
    apply Fin.ext
    simp only [mapOf2]
    omega

theorem regroup {M : Type*} [AddCommMonoid M] (G : Fin 128 → M) :
    ∑ core : Fin 2, ∑ j : Fin 32, ∑ n : Fin 2, G (mapOf core j n) = ∑ b : Fin 16, ∑ c : Fin 8, G (mapOf2 b c) := by
  -- both sides are the sum of G over all of 0 … 127, enumerated through one of the two bijections
  have h1 : ∑ core : Fin 2, ∑ j : Fin 32, ∑ n : Fin 2, G (mapOf core j n) = ∑ k, G k := by
    rw [← Equiv.sum_comp equivOf G, Fintype.sum_prod_type]
    refine Finset.sum_congr rfl fun a _ => ?_
    rw [Fintype.sum_prod_type]
    rfl
  have h2 : ∑ b : Fin 16, ∑ c : Fin 8, G (mapOf2 b c) = ∑ k, G k := by
    rw [← Equiv.sum_comp equivOf2 G, Fintype.sum_prod_type]
    rfl
  rw [h1, h2]

end Cert.SumIdx

end
-- ==== Proof.KernelPayload.lean ====
/-
  The kernel body's arithmetic read at the extended reals. The shifted copies of the block (a one-row or
  one-column slice concatenated with the rest) are the block at the clamped neighbour, so the two four-way
  minima and maxima are the erosion and the dilation of each map; the three lane sums add the squared
  difference over columns, rows and the block's two maps. The mask of the accumulator update is set at
  row 0, lane 0 only.
-/
import proofs.«138548_j24189255811164_1_alg».proof.Proof.Gen.KernelIdeal.Skeleton
import proofs.«138548_j24189255811164_1_alg».proof.Proof.Opening
import proofs.«138548_j24189255811164_1_alg».proof.Proof.SumIdx
import Idealize.ShloMosaic.Lib.Pipeline.Value
import Idealize.ShloMosaic.PureOps.Ideal.Laws

noncomputable section

namespace Cert.KernelIdeal.KPay

open Idealize.ShloMosaic Idealize.ShloMosaic.ValueIdx Cert.KernelIdeal Cert.KernelIdeal.Gen Cert.Opening

/-! ### The four shifted copies of a block -/

/-- Row 0 on top of rows 0 … 510. -/
private def rowsPrv {α : Type} (v : S2x512x512.Idx → α) : S2x512x512.Idx → α :=
  concatenate S2x512x512 1 [⟨S2x1x512, extractStridedSlice S2x1x512 ![0, 0, 0] v slices_S2x512x512_o0_0_0_S2x1x512⟩,
    ⟨S2x511x512, extractStridedSlice S2x511x512 ![0, 0, 0] v slices_S2x512x512_o0_0_0_S2x511x512⟩]
    concatenates_S2x1x512_S2x511x512_S2x512x512_d1

/-- Column 0 left of columns 0 … 510. -/
private def colsPrv {α : Type} (v : S2x512x512.Idx → α) : S2x512x512.Idx → α :=
  concatenate S2x512x512 2 [⟨S2x512x1, extractStridedSlice S2x512x1 ![0, 0, 0] v slices_S2x512x512_o0_0_0_S2x512x1⟩,
    ⟨S2x512x511, extractStridedSlice S2x512x511 ![0, 0, 0] v slices_S2x512x512_o0_0_0_S2x512x511⟩]
    concatenates_S2x512x1_S2x512x511_S2x512x512_d2

/-- Rows 1 … 511 on top of row 511. -/
private def rowsNxt {α : Type} (v : S2x512x512.Idx → α) : S2x512x512.Idx → α :=
  concatenate S2x512x512 1 [⟨S2x511x512, extractStridedSlice S2x511x512 ![0, 1, 0] v slices_S2x512x512_o0_1_0_S2x511x512⟩,
    ⟨S2x1x512, extractStridedSlice S2x1x512 ![0, 511, 0] v slices_S2x512x512_o0_511_0_S2x1x512⟩]
    concatenates_S2x511x512_S2x1x512_S2x512x512_d1

/-- Columns 1 … 511 left of column 511. -/
private def colsNxt {α : Type} (v : S2x512x512.Idx → α) : S2x512x512.Idx → α :=
  concatenate S2x512x512 2 [⟨S2x512x511, extractStridedSlice S2x512x511 ![0, 0, 1] v slices_S2x512x512_o0_0_1_S2x512x511⟩,
    ⟨S2x512x1, extractStridedSlice S2x512x1 ![0, 0, 511] v slices_S2x512x512_o0_0_511_S2x512x1⟩]
    concatenates_S2x512x511_S2x512x1_S2x512x512_d2

/-- The block read one row up, row 0 repeated. -/
private theorem rowsPrv_apply {α : Type} (v : S2x512x512.Idx → α) (n : Fin 2) (h w : Fin 512) :
    rowsPrv v (ix3 n h w) = v (ix3 n (prv h) w) := by
  have hh := h.isLt
  unfold rowsPrv
  by_cases h0 : h.val = 0
  · refine (concatenate_pair_apply_left (t := S2x512x512) (s₁ := S2x1x512) (s₂ := S2x511x512) (1 : Fin 3) _ _ _
      (ix3 n h w) rfl (ix3 n ⟨0, by omega⟩ w) ?_).trans ?_
    · intro b
      match b with
      | ⟨0, _⟩ => rfl
      | ⟨1, _⟩ => exact h0.symm
      | ⟨2, _⟩ => rfl
    · refine extractStridedSlice_apply _ v _ _ (ix3 n (prv h) w) ?_
      intro a
      match a with
      | ⟨0, _⟩ => show n.val = 0 + n.val; omega
      | ⟨1, _⟩ => show h.val - 1 = 0 + 0; omega
      | ⟨2, _⟩ => show w.val = 0 + w.val; omega
  · refine (concatenate_pair_apply_right (t := S2x512x512) (s₁ := S2x1x512) (s₂ := S2x511x512) (1 : Fin 3) _ _ _
      (ix3 n h w) rfl rfl (ix3 n ⟨h.val - 1, by omega⟩ w) ?_ ?_).trans ?_
    · intro b hb
      match b with
      | ⟨0, _⟩ => rfl
      | ⟨1, _⟩ => exact absurd rfl hb
      | ⟨2, _⟩ => rfl
    · show h.val - 1 + 1 = h.val; omega
    · refine extractStridedSlice_apply _ v _ _ (ix3 n (prv h) w) ?_
      intro a
      match a with
      | ⟨0, _⟩ => show n.val = 0 + n.val; omega
      | ⟨1, _⟩ => show h.val - 1 = 0 + (h.val - 1); omega
      | ⟨2, _⟩ => show w.val = 0 + w.val; omega

/-- The block read one column to the left, column 0 repeated. -/
private theorem colsPrv_apply {α : Type} (v : S2x512x512.Idx → α) (n : Fin 2) (h w : Fin 512) :
    colsPrv v (ix3 n h w) = v (ix3 n h (prv w)) := by
  have hw := w.isLt
  unfold colsPrv
  by_cases w0 : w.val = 0
  · refine (concatenate_pair_apply_left (t := S2x512x512) (s₁ := S2x512x1) (s₂ := S2x512x511) (2 : Fin 3) _ _ _
      (ix3 n h w) rfl (ix3 n h ⟨0, by omega⟩) ?_).trans ?_
    · intro b
      match b with
      | ⟨0, _⟩ => rfl
      | ⟨1, _⟩ => rfl
      | ⟨2, _⟩ => exact w0.symm
    · refine extractStridedSlice_apply _ v _ _ (ix3 n h (prv w)) ?_
      intro a
      match a with
      | ⟨0, _⟩ => show n.val = 0 + n.val; omega
      | ⟨1, _⟩ => show h.val = 0 + h.val; omega
      | ⟨2, _⟩ => show w.val - 1 = 0 + 0; omega
  · refine (concatenate_pair_apply_right (t := S2x512x512) (s₁ := S2x512x1) (s₂ := S2x512x511) (2 : Fin 3) _ _ _
      (ix3 n h w) rfl rfl (ix3 n h ⟨w.val - 1, by omega⟩) ?_ ?_).trans ?_
    · intro b hb
      match b with
      | ⟨0, _⟩ => rfl
      | ⟨1, _⟩ => rfl
      | ⟨2, _⟩ => exact absurd rfl hb
    · show w.val - 1 + 1 = w.val; omega
    · refine extractStridedSlice_apply _ v _ _ (ix3 n h (prv w)) ?_
      intro a
      match a with
      | ⟨0, _⟩ => show n.val = 0 + n.val; omega
      | ⟨1, _⟩ => show h.val = 0 + h.val; omega
      | ⟨2, _⟩ => show w.val - 1 = 0 + (w.val - 1); omega

/-- The block read one row down, row 511 repeated. -/
private theorem rowsNxt_apply {α : Type} (v : S2x512x512.Idx → α) (n : Fin 2) (h w : Fin 512) :
    rowsNxt v (ix3 n h w) = v (ix3 n (nxt h) w) := by
  have hh := h.isLt
  unfold rowsNxt
  by_cases h1 : h.val < 511
  · refine (concatenate_pair_apply_left (t := S2x512x512) (s₁ := S2x511x512) (s₂ := S2x1x512) (1 : Fin 3) _ _ _
      (ix3 n h w) rfl (ix3 n ⟨h.val, h1⟩ w) ?_).trans ?_
    · intro b
      match b with
      | ⟨0, _⟩ => rfl
      | ⟨1, _⟩ => rfl
      | ⟨2, _⟩ => rfl
    · refine extractStridedSlice_apply _ v _ _ (ix3 n (nxt h) w) ?_
      intro a
      match a with
      | ⟨0, _⟩ => show n.val = 0 + n.val; omega
      | ⟨1, _⟩ => show min (h.val + 1) 511 = 1 + h.val; omega
      | ⟨2, _⟩ => show w.val = 0 + w.val; omega
  · refine (concatenate_pair_apply_right (t := S2x512x512) (s₁ := S2x511x512) (s₂ := S2x1x512) (1 : Fin 3) _ _ _
      (ix3 n h w) rfl rfl (ix3 n ⟨0, by omega⟩ w) ?_ ?_).trans ?_
    · intro b hb
      match b with
      | ⟨0, _⟩ => rfl
      | ⟨1, _⟩ => exact absurd rfl hb
      | ⟨2, _⟩ => rfl
    · show 0 + 511 = h.val; omega
    · refine extractStridedSlice_apply _ v _ _ (ix3 n (nxt h) w) ?_
      intro a
      match a with
      | ⟨0, _⟩ => show n.val = 0 + n.val; omega
      | ⟨1, _⟩ => show min (h.val + 1) 511 = 511 + 0; omega
      | ⟨2, _⟩ => show w.val = 0 + w.val; omega

/-- The block read one column to the right, column 511 repeated. -/
private theorem colsNxt_apply {α : Type} (v : S2x512x512.Idx → α) (n : Fin 2) (h w : Fin 512) :
    colsNxt v (ix3 n h w) = v (ix3 n h (nxt w)) := by
  have hw := w.isLt
  unfold colsNxt
  by_cases w1 : w.val < 511
  · refine (concatenate_pair_apply_left (t := S2x512x512) (s₁ := S2x512x511) (s₂ := S2x512x1) (2 : Fin 3) _ _ _
      (ix3 n h w) rfl (ix3 n h ⟨w.val, w1⟩) ?_).trans ?_
    · intro b
      match b with
      | ⟨0, _⟩ => rfl
      | ⟨1, _⟩ => rfl
      | ⟨2, _⟩ => rfl
    · refine extractStridedSlice_apply _ v _ _ (ix3 n h (nxt w)) ?_
      intro a
      match a with
      | ⟨0, _⟩ => show n.val = 0 + n.val; omega
      | ⟨1, _⟩ => show h.val = 0 + h.val; omega
      | ⟨2, _⟩ => show min (w.val + 1) 511 = 1 + w.val; omega
  · refine (concatenate_pair_apply_right (t := S2x512x512) (s₁ := S2x512x511) (s₂ := S2x512x1) (2 : Fin 3) _ _ _
      (ix3 n h w) rfl rfl (ix3 n h ⟨0, by omega⟩) ?_ ?_).trans ?_
    · intro b hb
      match b with
      | ⟨0, _⟩ => rfl
      | ⟨1, _⟩ => rfl
      | ⟨2, _⟩ => exact absurd rfl hb
    · show 0 + 511 = w.val; omega
    · refine extractStridedSlice_apply _ v _ _ (ix3 n h (nxt w)) ?_
      intro a
      match a with
      | ⟨0, _⟩ => show n.val = 0 + n.val; omega
      | ⟨1, _⟩ => show h.val = 0 + h.val; omega
      | ⟨2, _⟩ => show min (w.val + 1) 511 = 511 + 0; omega

/-! ### Erosion, dilation and the squared difference, read at an entry -/

/-- The four-way minimum of a block and its copies shifted down, right and both. -/
private def eroB (v : FVec Ideal S2x512x512 .f32) : FVec Ideal S2x512x512 .f32 :=
  minimumf (minimumf v (colsPrv v)) (minimumf (rowsPrv v) (colsPrv (rowsPrv v)))

/-- The four-way maximum of a block and its copies shifted up, left and both. -/
private def dilB (e : FVec Ideal S2x512x512 .f32) : FVec Ideal S2x512x512 .f32 :=
  maximumf (maximumf e (colsNxt e)) (maximumf (rowsNxt e) (colsNxt (rowsNxt e)))

/-- The minimum is the erosion of each map: the shifted copies read the clamped neighbours. -/
private theorem eroB_apply (v : FVec Ideal S2x512x512 .f32) (n : Fin 2) (h w : Fin 512) :
    eroB v (ix3 n h w) = ero (fun h w => v (ix3 n h w)) h w := by
  unfold eroB
  simp only [minimumf_apply, colsPrv_apply, rowsPrv_apply]
  rfl

/-- The maximum is the dilation of each map. -/
private theorem dilB_apply (e : FVec Ideal S2x512x512 .f32) (n : Fin 2) (h w : Fin 512) :
    dilB e (ix3 n h w) = dil (fun h w => e (ix3 n h w)) h w := by
  unfold dilB
  simp only [maximumf_apply, colsNxt_apply, rowsNxt_apply]
  rfl

/-- The squared difference between the block and its opening, read at an entry. -/
private theorem sqd_read (v : FVec Ideal S2x512x512 .f32) (n : Fin 2) (h w : Fin 512) :
    mulf (subf v (dilB (eroB v))) (subf v (dilB (eroB v))) (ix3 n h w) = sqd (fun h w => v (ix3 n h w)) h w := by
  have he : (fun h w => eroB v (ix3 n h w)) = ero (fun h w => v (ix3 n h w)) := by
    funext h w; exact eroB_apply v n h w
  rw [mulf_apply, subf_apply, dilB_apply, he]
  rfl

/-! ### The three lane sums -/

/-- Summing over columns, then rows, then the block's two maps, and reading the one entry left: the sum of the
    block's entries, map by map, row by row. -/
private theorem sums_read (g : FVec Ideal S2x512x512 .f32) :
    extractAt ![0, 0] (shapeCast S1x1 (multiReduction .add [1] S1 (shapeCast S1x2
        (multiReduction .add [1] S2 (multiReduction .add [2] S2x512 g 0x00000000#32 reduces_S2x512x512_S2x512 (.inl rfl) rfl)
          0x00000000#32 reduces_S2x512_S2 (.inl rfl) rfl) shapeCasts_S2_S1x2) 0x00000000#32 reduces_S1x2_S1 (.inl rfl) rfl)
        shapeCasts_S1_S1x1) inpos_S1x1_p0_0
      = ∑ n : Fin 2, ∑ h : Fin 512, ∑ w : Fin 512, g (ix3 n h w) := by
  unfold extractAt
  refine (shapeCast_addUnit_apply (n := 1) ![1] _ shapeCasts_S1_S1x1 _).trans ?_
  refine (Ideal.multiReduction_add_single _ 0x00000000#32 reduces_S1x2_S1 (.inl rfl) rfl _).trans ?_
  refine Finset.sum_congr rfl fun n _ => ?_
  refine (shapeCast_addUnit_apply (n := 1) ![2] _ shapeCasts_S2_S1x2 _).trans ?_
  refine (Ideal.multiReduction_add_single _ 0x00000000#32 reduces_S2x512_S2 (.inl rfl) rfl _).trans ?_
  refine Finset.sum_congr rfl fun h _ => ?_
  refine (Ideal.multiReduction_add_single _ 0x00000000#32 reduces_S2x512x512_S2x512 (.inl rfl) rfl _).trans ?_
  refine Finset.sum_congr rfl fun w _ => ?_
  refine congrArg g (funext fun a => ?_)
  match a with
  | ⟨0, _⟩ => exact Fin.ext rfl
  | ⟨1, _⟩ => exact Fin.ext rfl
  | ⟨2, _⟩ => exact Fin.ext rfl

/-- The block's total: the same at every entry of the broadcast. -/
theorem pay4_eq (x0 : Vec Ideal S2x512x512 .f32) (y : S1x8x128.Idx) :
    k0_pay4 (F := Ideal) x0 y = blockSum x0 := by
  -- the cast of the block to its own shape is the block
  have e4 : (shapeCast S2x512x512 x0 shapeCasts_S2x512x512_S2x512x512 : FVec Ideal S2x512x512 .f32) = x0 :=
    shapeCast_self _ _
  unfold k0_pay4
  rw [broadcast_apply, e4]
  -- the three sums, then entry by entry
  refine (sums_read _).trans ?_
  unfold blockSum mapSum
  refine Finset.sum_congr rfl fun n _ => Finset.sum_congr rfl fun h _ => Finset.sum_congr rfl fun w _ => ?_
  exact sqd_read x0 n h w

/-! ### The mask and the two zero splats -/

/-- Comparing a small natural's 32-bit word with the zero word. -/
private theorem cmpi_eq_zero (k : Nat) (hk : k < 2 ^ 32) :
    IntOp.cmpi .eq (BitVec.ofNat 32 k) 0#32 = if k = 0 then 1#1 else 0#1 := by
  unfold IntOp.cmpi
  by_cases h : k = 0
  · subst h; rfl
  · rw [if_neg h]
    have hne : (BitVec.ofNat 32 k == 0#32) = false := by
      rw [beq_eq_false_iff_ne]
      intro e
      have e' := congrArg BitVec.toNat e
      rw [BitVec.toNat_ofNat, Nat.mod_eq_of_lt hk] at e'
      exact h e'
    show BitVec.ofBool (BitVec.ofNat 32 k == 0#32) = 0#1
    rw [hne]; rfl

/-- The mask selects row 0, lane 0. -/
theorem pay3_select {α : Type} (y : S1x8x128.Idx) (a b : α) :
    Scalar.select (k0_pay3 y) a b = if (y 1).val = 0 ∧ (y 2).val = 0 then a else b := by
  have h1 : (y 1).val < 8 := (y 1).isLt
  have h2 : (y 2).val < 128 := (y 2).isLt
  unfold k0_pay3
  show Scalar.select (IntOp.andi (IntOp.cmpi .eq (iota .tc S1x8x128 32 [1] iota_S1x8x128_d1_w32 y) 0#32)
      (IntOp.cmpi .eq (iota .tc S1x8x128 32 [2] iota_S1x8x128_d2_w32 y) 0#32)) a b = _
  rw [iota_single_apply, iota_single_apply, cmpi_eq_zero _ (by omega), cmpi_eq_zero _ (by omega)]
  by_cases e1 : (y 1).val = 0
  · by_cases e2 : (y 2).val = 0
    · rw [if_pos e1, if_pos e2, if_pos ⟨e1, e2⟩]; exact select_one a b
    · rw [if_pos e1, if_neg e2, if_neg (fun h => e2 h.2)]; exact select_zero a b
  · by_cases e2 : (y 2).val = 0
    · rw [if_neg e1, if_pos e2, if_neg (fun h => e1 h.1)]; exact select_zero a b
    · rw [if_neg e1, if_neg e2, if_neg (fun h => e1 h.1)]; exact select_zero a b

theorem pay2_eq (y : S1x8x128.Idx) : k0_pay2 (F := Ideal) y = 0 := by
  show Ideal.ofBits .f32 0x00000000#32 = 0
  exact Ideal.ofBits_zero_f32

theorem pay5_eq (y : S1x8x128.Idx) : k0_pay5 (F := Ideal) y = 0 := by
  show Ideal.ofBits .f32 0x00000000#32 = 0
  exact Ideal.ofBits_zero_f32

end Cert.KernelIdeal.KPay

end
-- ==== Proof.KernelBlocks.lean ====
/-
  The input block of a grid step, read at an index. The kernel's operand is the argument reshaped from
  16 × 8 maps to 128 maps; step t stages maps 2t and 2t + 1 whole. So entry (n, h, w) of the block is entry
  (h, w) of map 2t + n, which is map (batch, channel) = ((2t + n) / 8, (2t + n) % 8) of the argument.
-/
import proofs.«138548_j24189255811164_1_alg».proof.Proof.Gen.KernelIdeal.Frame
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.KernelIdeal.KBlocks

open Cert.KernelIdeal Cert.KernelIdeal.Gen

variable {F : FTy → Type} [FloatOps F]
variable (m : (ℓ : Loc nD τ sig) → Buf (Elt F) ℓ)

/-- The input block at step `t`, at its literal type. -/
abbrev xblk (c : Dev nD) (t : Fin cfg0.N) : Vec F S2x512x512 .f32 := iblk m c 0 t

/-- The batch coordinate of map `2t + n`. -/
def mapB (t : Fin cfg0.N) (n : Fin 2) : Fin 16 :=
  ⟨(2 * t.val + n.val) / 8, by
    have h : t.val < 64 := lt_of_lt_of_eq t.isLt (show cfg0.N = 64 from N_0)
    have := n.isLt; omega⟩

/-- The channel coordinate of map `2t + n`. -/
def mapC (t : Fin cfg0.N) (n : Fin 2) : Fin 8 := ⟨(2 * t.val + n.val) % 8, by omega⟩

/-- The array the region finds is the argument reshaped from 16 × 8 maps to 128 maps. -/
private theorem arr_eq (c : Dev nD) :
    (V m c main_v0 : S128x512x512.Idx → Elt F .f32)
      = shapeCast S128x512x512 (m ((c.tc : Thread nD τ).loc main_arg0)) shapeCasts_S16x8x512x512_S128x512x512 := by
  show StableHlo.after hostOps0 (fun b => m (c, b)) (Proc.devRef .tc main_v0) = _
  after_results
  rfl

/-- Window 0's block index at step t is (t, 0, 0): decided over the grid. -/
private theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)

/-- Entry (n, h, w) of the block staged at step t is entry (h, w) of map 2t + n of the array: a block's
    coordinate is its index times its size plus the coordinate inside it, and the block index is (t, 0, 0). -/
private theorem blk_read (c : Dev nD) (t : Fin cfg0.N) (n : Fin 2) (h w : Fin 512) (hk : 2 * t.val + n.val < 128) :
    xblk m c t (ix3 n h w) = (V m c main_v0 : S128x512x512.Idx → Elt F .f32) (ix3 ⟨2 * t.val + n.val, hk⟩ h w) := by
  show iblk m c 0 t (ix3 n h w) = _
  unfold iblk
  rw [View.read_apply]
  show (V m c main_v0 : S128x512x512.Idx → Elt F .f32) _ = V m c main_v0 _
  congr 1
  funext a
  apply Fin.ext
  obtain ⟨i0, i1, i2⟩ := idx0 t
  match a with
  | ⟨0, _⟩ =>
    show win0_0.index t 0 * 2 + 1 * n.val = 2 * t.val + n.val
    rw [i0]; omega
  | ⟨1, _⟩ =>
    show win0_0.index t 1 * 512 + 1 * h.val = h.val
    rw [i1]; omega
  | ⟨2, _⟩ =>
    show win0_0.index t 2 * 512 + 1 * w.val = w.val
    rw [i2]; omega

/-- The reshape reads map k of 128 at (batch, channel) = (k / 8, k % 8) of 16 × 8: the same row-major position. -/
private theorem reshape_at {α : Type} (x : S16x8x512x512.Idx → α) (k : Fin 128) (h w : Fin 512)
    (hb : k.val / 8 < 16) (hc : k.val % 8 < 8) :
    shapeCast S128x512x512 x shapeCasts_S16x8x512x512_S128x512x512 (ix3 k h w)
      = x (ix4 ⟨k.val / 8, hb⟩ ⟨k.val % 8, hc⟩ h w) := by
  refine shapeCast_apply x _ _ _ ?_
  rw [Shape.rowMajor_val_four, Shape.rowMajor_val_three]
  show ((k.val / 8 * 8 + k.val % 8) * 512 + h.val) * 512 + w.val = (k.val * 512 + h.val) * 512 + w.val
  omega

theorem xblk_apply (c : Dev nD) (t : Fin cfg0.N) (n : Fin 2) (h w : Fin 512) :
    xblk m c t (ix3 n h w) = m ((c.tc : Thread nD τ).loc main_arg0) (ix4 (mapB t n) (mapC t n) h w) := by
  have ht : t.val < 64 := lt_of_lt_of_eq t.isLt (show cfg0.N = 64 from N_0)
  have hn := n.isLt
  have hk : 2 * t.val + n.val < 128 := by omega
  rw [blk_read m c t n h w hk, arr_eq, reshape_at _ ⟨2 * t.val + n.val, hk⟩ h w (by show (2 * t.val + n.val) / 8 < 16; omega) (by show (2 * t.val + n.val) % 8 < 8; omega)]
  rfl

end Cert.KernelIdeal.KBlocks

end
-- ==== Proof.KernelValue.lean ====
/-
  The kernel's result as a value. The accumulator block of a half holds, at row 0 and lane 0, the running sum of
  the totals of the blocks staged since the half began, and zero elsewhere: the first step of a half resets the
  block and adds its masked total to zero, every later step adds its masked total to what the step before left.
  The block is written back after the last step of each half, so the result array of the call holds the two
  halves' sums at (half, 0, 0) and zero elsewhere; the host lines after the call add the array up and divide.
  Over the extended reals addition is commutative and associative, so the sum of the array is the sum over all
  128 maps of each map's squared difference from its opening.
-/
import proofs.«138548_j24189255811164_1_alg».proof.Proof.KernelPieces
import proofs.«138548_j24189255811164_1_alg».proof.Proof.KernelPayload
import proofs.«138548_j24189255811164_1_alg».proof.Proof.KernelBlocks
import proofs.«138548_j24189255811164_1_alg».proof.Proof.Opening
import proofs.«138548_j24189255811164_1_alg».proof.Proof.SumIdx
import Idealize.ShloMosaic.Lib.Pipeline.Value
import Idealize.ShloMosaic.Lib.StableHlo.Run
import Idealize.ShloMosaic.Lib.IdealHost
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Opening Cert.KernelIdeal.KBlocks

/-! ## The host lines after the call, as one function of the call's result array -/

section Tail

variable {F : FTy → Type} [FloatOps F]
variable (m : (ℓ : Loc nD τ sig) → Buf (Elt F) ℓ) (ρ : Dev nD → PrngReg)

/-- The sum of the call's result array over every axis, from zero. -/
def tailSum (P : Vec F S2x8x128 .f32) : FVec F S_ .f32 :=
  Host.reduceAdd P (constant S_ .f32 0x00000000#32) reducesTo_S2x8x128_S_d0_1_2 h_S_

/-- The mean: that sum divided by the number of elements of the argument. -/
def tail (P : Vec F S2x8x128 .f32) : FVec F S_ .f32 :=
  Host.divf (tailSum P) (constant S_ .f32 0x4C000000#32)

/-- What the lines after the call leave in the result buffer. -/
theorem tail_eq (c : Dev nD) :
    Pipeline.afterTail₀ cfgs (dats m) 0 (V0 m) [hostOps1] c main_v3 = tail ((dats m 0 c).arrAt 1 cfg0.N) := by
  unfold Pipeline.afterTail₀
  show StableHlo.after hostOps1 _ (Proc.devRef .tc main_v3) = _
  after_results
  have e : Pipeline.withArrays (cfgs 0).spec c (V0 m c) (fun w => (dats m 0 c).arrAt w (cfgs 0).N)
      (Proc.devRef .tc main_v1) = (dats m 0 c).arrAt 1 cfg0.N :=
    Pipeline.withArrays_arr spec0 launch0.win.arr_inj c _ _ 1
  rw [e]
  rfl

/-- The run, read: the result buffer at the mean of the call's result array, the argument unchanged. -/
theorem run_tail : θ_run defs (onTc (τ := τ) (main (F := F))) ⟨m, fun _ => 0, ρ⟩ fun r => ∀ c : Dev nD,
      r.2.mem ((c.tc : Thread nD τ).loc main_v3) = tail ((dats m 0 c).arrAt 1 cfg0.N)
      ∧ r.2.mem ((c.tc : Thread nD τ).loc main_arg0) = m ((c.tc : Thread nD τ).loc main_arg0) :=
  (θ_run defs _ _).mono (fun r h c =>
      ⟨((h c).2 main_v3 (Pipeline.mem_restRefs_of main_v3 (by decide) (by decide))).trans (tail_eq m c),
       ((h c).2 main_arg0 (Pipeline.mem_restRefs_of main_arg0 (by decide) (by decide))).trans (W_main_arg0 m (dats m) c)⟩)
    (run_main m ρ)

end Tail

/-! ## The accumulator block, step by step, over the extended reals -/

section Acc

variable (m : (ℓ : Loc nD τ sig) → Buf (Elt Ideal) ℓ) (ρ : Dev nD → PrngReg)

/-- A value at row 0, lane 0 of the block, zero elsewhere. -/
def atOrigin (a : EReal) : Vec Ideal S1x8x128 .f32 := fun y => if (y 1).val = 0 ∧ (y 2).val = 0 then a else 0

/-- One update of the block: what it held plus the step's total at row 0, lane 0. -/
theorem pay1_apply (x : Vec Ideal S2x512x512 .f32) (v : Vec Ideal S1x8x128 .f32) (y : S1x8x128.Idx) :
    k0_pay1 (F := Ideal) k0_pay3 (k0_pay4 x) k0_pay5 v y = v y + atOrigin (blockSum x) y := by
  unfold k0_pay1
  show shapeCast S1x8x128 v shapeCasts_S1x8x128_S1x8x128 y
      + Scalar.select (k0_pay3 y) (k0_pay4 (F := Ideal) x y) (k0_pay5 (F := Ideal) y) = v y + atOrigin (blockSum x) y
  rw [shapeCast_self, KPay.pay3_select, KPay.pay4_eq, KPay.pay5_eq]
  rfl

/-- The total of the block staged at step `n` (zero past the grid). -/
def tot (c : Dev nD) (n : ℕ) : EReal := if h : n < cfg0.N then blockSum (xblk m c ⟨n, h⟩) else 0

/-- The running sum since the half began. -/
def acc (c : Dev nD) : ℕ → EReal
  | 0 => tot m c 0
  | n + 1 => if (n + 1) % 32 = 0 then tot m c (n + 1) else acc c n + tot m c (n + 1)

theorem acc_zero (c : Dev nD) : acc m c 0 = tot m c 0 := rfl
theorem acc_succ (c : Dev nD) (n : ℕ) :
    acc m c (n + 1) = if (n + 1) % 32 = 0 then tot m c (n + 1) else acc m c n + tot m c (n + 1) := rfl

theorem atOrigin_add (a b : EReal) (y : S1x8x128.Idx) : atOrigin a y + atOrigin b y = atOrigin (a + b) y := by
  unfold atOrigin
  split_ifs
  · rfl
  · exact add_zero 0

/-- What the block holds after step `n`: the running sum at row 0, lane 0. -/
theorem outsAt_eq (c : Dev nD) : ∀ (n : ℕ) (h : n < cfg0.N), outsAt0 m c n h = atOrigin (acc m c n)
  | 0, h => by
    rw [outsAt0_A m c ⟨0, h⟩ rfl, out_A]
    funext y
    rw [pay1_apply, KPay.pay2_eq, zero_add, acc_zero, tot, dif_pos h]
  | n + 1, h => by
    by_cases h0 : (n + 1) % 32 = 0
    · rw [outsAt0_A m c ⟨n + 1, h⟩ h0, out_A]
      funext y
      rw [pay1_apply, KPay.pay2_eq, zero_add, acc_succ, if_pos h0, tot, dif_pos h]
    · rw [outsAt0_B m c ⟨n + 1, h⟩ h0, out_B]
      funext y
      rw [pay1_apply]
      show outsAt0 m c n _ y + _ = _
      rw [outsAt_eq c n, acc_succ, if_neg h0, ← atOrigin_add, tot, dif_pos h]

/-- The running sum at step `j` of half `q` is the sum of the totals of the half's steps up to `j`. -/
theorem acc_eq (c : Dev nD) (q : ℕ) : ∀ j : ℕ, j < 32 →
    acc m c (32 * q + j) = ∑ i ∈ Finset.range (j + 1), tot m c (32 * q + i)
  | 0, _ => by
    rw [Finset.sum_range_one]
    cases q with
    | zero => rfl
    | succ q =>
      have e : 32 * (q + 1) + 0 = (32 * q + 31) + 1 := by omega
      rw [e, acc_succ, if_pos (by omega)]
  | j + 1, hj => by
    have e : 32 * q + (j + 1) = (32 * q + j) + 1 := by omega
    rw [Finset.sum_range_succ, ← acc_eq c q j (by omega), e, acc_succ, if_neg (by omega)]

/-! ## The call's result array -/

/-- Each half's sum at row 0, lane 0 of its block; zero elsewhere. -/
def partials (c : Dev nD) : Vec Ideal S2x8x128 .f32 :=
  fun i => if (i 1).val = 0 ∧ (i 2).val = 0 then acc m c (32 * (i 0).val + 31) else 0

/-- The result window's block index at step `t`: the half, and nothing else. -/
theorem idx1 : ∀ t : Fin cfg0.N, win0_1.index t (0 : Fin 3) = t.val / 32
    ∧ win0_1.index t (1 : Fin 3) = 0 ∧ win0_1.index t (2 : Fin 3) = 0 :=
  (by decide +kernel : ∀ t : Fin grid0.N, _)

/-- What a write-back writes is the block of `partials` it covers. -/
theorem flushed_eq (c : Dev nD) (t : Fin cfg0.N) (hf : (cfg0.win 1).flush t = true) :
    (dats m 0 c).flushed 1 t = ((cfg0.win 1).blk t).view.read (Elt Ideal) (partials m c) := by
  have h31 : t.val % 32 = 31 := (flush0_1 t).mp hf
  show (cfg0.win 1).cut (grid0.coords t) ((dats m 0 c).after 1 t) = _
  rw [after0_1, outsAt_eq]
  obtain ⟨e0, e1, e2⟩ := idx1 t
  funext y
  show atOrigin (acc m c t.val) y = partials m c (((cfg0.win 1).blk t).view.emb y)
  have c0 : ((((cfg0.win 1).blk t).view.emb y) 0).val = t.val / 32 := by
    show win0_1.index t (0 : Fin 3) * 1 + 1 * (y 0).val = _
    have hy : (y 0).val < 1 := (y 0).isLt
    omega
  have c1 : ((((cfg0.win 1).blk t).view.emb y) 1).val = (y 1).val := by
    show win0_1.index t (1 : Fin 3) * 8 + 1 * (y 1).val = _
    omega
  have c2 : ((((cfg0.win 1).blk t).view.emb y) 2).val = (y 2).val := by
    show win0_1.index t (2 : Fin 3) * 128 + 1 * (y 2).val = _
    omega
  unfold atOrigin partials
  rw [c0, c1, c2, show 32 * (t.val / 32) + 31 = t.val by omega]

/-- An index of the array is in step `t`'s block iff each coordinate is in the block's range. -/
theorem mem_blk (t : Fin cfg0.N) (i : S2x8x128.Idx) :
    i ∈ ((cfg0.win 1).blk t).view.set ↔ ∀ a : Fin 3, win0_1.index t a * S1x8x128.size a ≤ (i a).val
      ∧ (i a).val < win0_1.index t a * S1x8x128.size a + S1x8x128.size a := by
  show i ∈ ((View.whole main_v1).slice (win0_1.rect t)).set ↔ _
  rw [View.set_slice_whole, Rect.mem_set_unit]
  exact Iff.rfl

/-- The two write-backs cover the array, so it ends holding `partials`. -/
theorem final (c : Dev nD) : (dats m 0 c).arrAt 1 cfg0.N = partials m c :=
  (dats m 0 c).arrAt_eq_of_cover 1 (partials m c) (fun t hf => flushed_eq m c t hf) fun i => by
    have hi0 : (i 0).val < 2 := (i 0).isLt
    have hi1 : (i 1).val < 8 := (i 1).isLt
    have hi2 : (i 2).val < 128 := (i 2).isLt
    have hN : cfg0.N = 64 := N_0
    have hlt : 32 * (i 0).val + 31 < cfg0.N := by rw [hN]; omega
    refine ⟨⟨32 * (i 0).val + 31, hlt⟩, (flush0_1 _).mpr (by show (32 * (i 0).val + 31) % 32 = 31; omega), ?_⟩
    rw [mem_blk]
    obtain ⟨e0, e1, e2⟩ := idx1 ⟨32 * (i 0).val + 31, hlt⟩
    have e0' : win0_1.index ⟨32 * (i 0).val + 31, hlt⟩ (0 : Fin 3) = (i 0).val := by
      rw [e0]; show (32 * (i 0).val + 31) / 32 = (i 0).val; omega
    intro a
    match a with
    | ⟨0, _⟩ => show win0_1.index _ (0 : Fin 3) * 1 ≤ (i 0).val ∧ (i 0).val < win0_1.index _ (0 : Fin 3) * 1 + 1; omega
    | ⟨1, _⟩ => show win0_1.index _ (1 : Fin 3) * 8 ≤ (i 1).val ∧ (i 1).val < win0_1.index _ (1 : Fin 3) * 8 + 8; omega
    | ⟨2, _⟩ => show win0_1.index _ (2 : Fin 3) * 128 ≤ (i 2).val ∧ (i 2).val < win0_1.index _ (2 : Fin 3) * 128 + 128; omega

end Acc

/-! ## The sum of the call's result array is the sum over all maps -/

section Total

variable (m : (ℓ : Loc nD τ sig) → Buf (Elt Ideal) ℓ) (ρ : Dev nD → PrngReg)

open Cert.SumIdx (mapOf mapOf2)

/-- Map `k` of the argument (maps counted 0 … 127, batch-major) summed. -/
def mapG (x : FVec Ideal S16x8x512x512 .f32) (k : Fin 128) : EReal :=
  mapSum (fun h w => x (ix4 (⟨k.val / 8, by have := k.isLt; omega⟩ : Fin 16) (⟨k.val % 8, by omega⟩ : Fin 8) h w))

/-- The total of the block staged at step `j` of half `q`: its two maps' sums. -/
theorem tot_eq (c : Dev nD) (q : Fin 2) (j : Fin 32) :
    tot m c (32 * q.val + j.val) = ∑ n : Fin 2, mapG (m ((c.tc : Thread nD τ).loc main_arg0)) (mapOf q j n) := by
  have hN : cfg0.N = 64 := N_0
  have hq := q.isLt
  have hj := j.isLt
  have hlt : 32 * q.val + j.val < cfg0.N := by rw [hN]; omega
  rw [tot, dif_pos hlt]
  unfold blockSum
  refine Finset.sum_congr rfl fun n _ => ?_
  unfold mapG
  refine congrArg mapSum (funext fun h => funext fun w => ?_)
  rw [xblk_apply]
  have hn := n.isLt
  have eB : mapB ⟨32 * q.val + j.val, hlt⟩ n = (⟨(mapOf q j n).val / 8, by have := (mapOf q j n).isLt; omega⟩ : Fin 16) := by
    apply Fin.ext
    show (2 * (32 * q.val + j.val) + n.val) / 8 = ((q.val * 32 + j.val) * 2 + n.val) / 8
    omega
  have eC : mapC ⟨32 * q.val + j.val, hlt⟩ n = (⟨(mapOf q j n).val % 8, by omega⟩ : Fin 8) := by
    apply Fin.ext
    show (2 * (32 * q.val + j.val) + n.val) % 8 = ((q.val * 32 + j.val) * 2 + n.val) % 8
    omega
  rw [eB, eC]

/-- The array's entries add up to the sum over all 16 × 8 maps. -/
theorem sum_partials (c : Dev nD) :
    ∑ i : S2x8x128.Idx, partials m c i = total4 (m ((c.tc : Thread nD τ).loc main_arg0)) := by
  rw [Cert.SumIdx.sum_idx3]
  have hrow : ∀ a : Fin 2, (∑ r : Fin 8, ∑ l : Fin 128, partials m c (ix3 a r l)) = acc m c (32 * a.val + 31) := by
    intro a
    rw [Finset.sum_eq_single (0 : Fin 8), Finset.sum_eq_single (0 : Fin 128)]
    · exact if_pos ⟨rfl, rfl⟩
    · intro l _ hl
      exact if_neg fun h => hl (Fin.ext h.2)
    · intro h
      exact absurd (Finset.mem_univ _) h
    · intro r _ hr
      exact Finset.sum_eq_zero fun l _ => if_neg fun h => hr (Fin.ext h.1)
    · intro h
      exact absurd (Finset.mem_univ _) h
  have hacc : ∀ a : Fin 2, acc m c (32 * a.val + 31)
      = ∑ j : Fin 32, ∑ n : Fin 2, mapG (m ((c.tc : Thread nD τ).loc main_arg0)) (mapOf a j n) := by
    intro a
    rw [acc_eq m c a.val 31 (by omega)]
    show ∑ i ∈ Finset.range 32, tot m c (32 * a.val + i) = _
    rw [Finset.sum_range (fun i => tot m c (32 * a.val + i))]
    exact Finset.sum_congr rfl fun j _ => tot_eq m c a j
  rw [Finset.sum_congr rfl fun a _ => (hrow a).trans (hacc a), Cert.SumIdx.regroup]
  unfold total4
  refine Finset.sum_congr rfl fun b _ => Finset.sum_congr rfl fun cc _ => ?_
  unfold mapG
  refine congrArg mapSum (funext fun h => funext fun w => ?_)
  have hb := b.isLt
  have hc := cc.isLt
  have eB : (⟨(mapOf2 b cc).val / 8, by have := (mapOf2 b cc).isLt; omega⟩ : Fin 16) = b := by
    apply Fin.ext
    show (b.val * 8 + cc.val) / 8 = b.val
    omega
  have eC : (⟨(mapOf2 b cc).val % 8, by omega⟩ : Fin 8) = cc := by
    apply Fin.ext
    show (b.val * 8 + cc.val) % 8 = cc.val
    omega
  rw [eB, eC]

/-- The sum the host lines take of the array, over the extended reals. -/
theorem tailSum_partials (c : Dev nD) :
    tailSum (F := Ideal) (partials m c) = fun _ => total4 (m ((c.tc : Thread nD τ).loc main_arg0)) := by
  funext j
  unfold tailSum
  rw [hostReduceAdd_apply, Ideal.hostReduceAdd_total _ (fun b => b.elim0), constant_apply, Ideal.ofBits_zero_f32,
    zero_add]
  exact sum_partials m c

/-- The mean of the squared differences, as the result buffer's contents. -/
def result (x : FVec Ideal S16x8x512x512 .f32) : FVec Ideal S_ .f32 :=
  Host.divf (fun _ => total4 x) (constant S_ .f32 0x4C000000#32)

/-- The kernel's run over the extended reals: the result buffer at the mean, the argument unchanged. -/
theorem run : θ_run defs (onTc (τ := τ) (main (F := Ideal))) ⟨m, fun _ => 0, ρ⟩ fun r => ∀ c : Dev nD,
      r.2.mem ((c.tc : Thread nD τ).loc main_v3) = result (m ((c.tc : Thread nD τ).loc main_arg0))
      ∧ r.2.mem ((c.tc : Thread nD τ).loc main_arg0) = m ((c.tc : Thread nD τ).loc main_arg0) :=
  (θ_run defs _ _).mono (fun r h c => ⟨(h c).1.trans (by rw [final, tail, tailSum_partials]; rfl), (h c).2⟩)
    (run_tail m ρ)

end Total

end Cert.KernelIdeal.KValue

end
-- ==== Proof.RefTerm.lean ====
/-
  The reference's result as ONE term of its argument, stage by stage: a one-pixel pad of the rows then of
  the columns on the low side (the padded row is a reversed one-row slice, so the edge row itself), a 2 × 2
  window minimum from +∞; the same on the high side with a window maximum from -∞; the difference from the
  argument squared, summed over every axis, divided by the number of elements.
-/
import proofs.«138548_j24189255811164_1_alg».proof.Proof.Gen.ReferenceIdeal

noncomputable section

namespace Cert.ReferenceIdeal.RefTerm

open Idealize.ShloMosaic Cert.ReferenceIdeal Cert.ReferenceIdeal.Gen

variable {F : FTy → Type} [FloatOps F]

/-- One row added before the first: the edge row again. -/
def rowPadLo (x : FVec F S16x8x512x512 .f32) : FVec F S16x8x513x512 .f32 :=
  concatenate S16x8x513x512 2
    [⟨S16x8x1x512, Host.reverse [2] (extractStridedSlice S16x8x1x512 ![0, 0, 0, 0] x slices_S16x8x512x512_S16x8x1x512_0_0_0_0)⟩,
     ⟨S16x8x512x512, x⟩] concatenates_S16x8x1x512_S16x8x512x512_S16x8x513x512_d2

/-- One column added before the first. -/
def colPadLo (y : FVec F S16x8x513x512 .f32) : FVec F S16x8x513x513 .f32 :=
  concatenate S16x8x513x513 3
    [⟨S16x8x513x1, Host.reverse [3] (extractStridedSlice S16x8x513x1 ![0, 0, 0, 0] y slices_S16x8x513x512_S16x8x513x1_0_0_0_0)⟩,
     ⟨S16x8x513x512, y⟩] concatenates_S16x8x513x1_S16x8x513x512_S16x8x513x513_d3

/-- One row added after the last. -/
def rowPadHi (x : FVec F S16x8x512x512 .f32) : FVec F S16x8x513x512 .f32 :=
  concatenate S16x8x513x512 2
    [⟨S16x8x512x512, x⟩,
     ⟨S16x8x1x512, Host.reverse [2] (extractStridedSlice S16x8x1x512 ![0, 0, 511, 0] x slices_S16x8x512x512_S16x8x1x512_0_0_511_0)⟩]
    concatenates_S16x8x512x512_S16x8x1x512_S16x8x513x512_d2

/-- One column added after the last. -/
def colPadHi (y : FVec F S16x8x513x512 .f32) : FVec F S16x8x513x513 .f32 :=
  concatenate S16x8x513x513 3
    [⟨S16x8x513x512, y⟩,
     ⟨S16x8x513x1, Host.reverse [3] (extractStridedSlice S16x8x513x1 ![0, 0, 0, 511] y slices_S16x8x513x512_S16x8x513x1_0_0_0_511)⟩]
    concatenates_S16x8x513x512_S16x8x513x1_S16x8x513x513_d3

/-- The 2 × 2 window minimum of the low-padded argument. -/
def erode (x : FVec F S16x8x512x512 .f32) : FVec F S16x8x512x512 .f32 :=
  Host.reduceWindow FloatOps.minimumf ![1, 1, 2, 2] ![1, 1, 1, 1] ![0, 0, 0, 0] ![0, 0, 0, 0] (colPadLo (rowPadLo x))
    (broadcastInDim S_ ![] bcast_S_S_ (constant S_ .f32 0x7F800000#32))
    reduceWindows_S16x8x513x513_S16x8x512x512_w1s1p0_0_w1s1p0_0_w2s1p0_0_w2s1p0_0 h_S_

/-- The 2 × 2 window maximum of the high-padded eroded array. -/
def dilate (e : FVec F S16x8x512x512 .f32) : FVec F S16x8x512x512 .f32 :=
  Host.reduceWindow FloatOps.maximumf ![1, 1, 2, 2] ![1, 1, 1, 1] ![0, 0, 0, 0] ![0, 0, 0, 0] (colPadHi (rowPadHi e))
    (broadcastInDim S_ ![] bcast_S_S_ (constant S_ .f32 0xFF800000#32))
    reduceWindows_S16x8x513x513_S16x8x512x512_w1s1p0_0_w1s1p0_0_w2s1p0_0_w2s1p0_0 h_S_

/-- The squared difference between the argument and its opening. -/
def refSq (x : FVec F S16x8x512x512 .f32) : FVec F S16x8x512x512 .f32 :=
  mulf (subf x (dilate (erode x))) (subf x (dilate (erode x)))

/-- Its sum over every axis. -/
def refSum (x : FVec F S16x8x512x512 .f32) : FVec F S_ .f32 :=
  Host.reduceAdd (refSq x) (constant S_ .f32 0x00000000#32) reducesTo_S16x8x512x512_S_d0_1_2_3 h_S_

/-- The mean. -/
def refOut (x : FVec F S16x8x512x512 .f32) : FVec F S_ .f32 :=
  Host.divf (refSum x) (constant S_ .f32 0x4C000000#32)

end Cert.ReferenceIdeal.RefTerm

end
-- ==== Proof.RefRun.lean ====
/-
  The reference's run: its @main is a straight line of host operations once the padding functions are unfolded
  at their calls, so every weakly fair execution terminates with the result buffer at the composed term of the
  argument and the argument unchanged.
-/
import proofs.«138548_j24189255811164_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 34 operations in order, the two padding functions unfolded at their calls over the calls'
    buffer records (each is ten: the slices, the row reversed, the rows joined, the column reversed, the
    columns joined), the reversals unfolded inside them. -/
abbrev ops : List (HloOp τ sig (Elt F)) :=
  [ nullary main_c (constantI S_ 32 0#32),
    TRef.unary (.of main_arg0 : TRef sig ⟨S16x8x512x512, .f32⟩) main_call0.v0 (extractStridedSlice S16x8x1x512 ![0, 0, 0, 0] · slices_S16x8x512x512_S16x8x1x512_0_0_0_0),
    TRef.unary (.of main_arg0 : TRef sig ⟨S16x8x512x512, .f32⟩) main_call0.v1 (extractStridedSlice S16x8x1x512 ![0, 0, 0, 0] · slices_S16x8x512x512_S16x8x1x512_0_0_0_0),
    TRef.unary main_call0.v1 main_call0.call0.v0 (Host.reverse [2]),
    TRef.binary main_call0.call0.v0 (.of main_arg0 : TRef sig ⟨S16x8x512x512, .f32⟩) main_call0.v3 (fun a b => concatenate S16x8x513x512 2 [⟨S16x8x1x512, a⟩, ⟨S16x8x512x512, b⟩] concatenates_S16x8x1x512_S16x8x512x512_S16x8x513x512_d2),
    TRef.unary main_call0.v3 main_call0.v4 (extractStridedSlice S16x8x1x512 ![0, 0, 512, 0] · slices_S16x8x513x512_S16x8x1x512_0_0_512_0),
    TRef.unary main_call0.v3 main_call0.v5 (extractStridedSlice S16x8x513x1 ![0, 0, 0, 0] · slices_S16x8x513x512_S16x8x513x1_0_0_0_0),
    TRef.unary main_call0.v3 main_call0.v6 (extractStridedSlice S16x8x513x1 ![0, 0, 0, 0] · slices_S16x8x513x512_S16x8x513x1_0_0_0_0),
    TRef.unary main_call0.v6 main_call0.call1.v0 (Host.reverse [3]),
    TRef.binary main_call0.call1.v0 main_call0.v3 main_call0.v8 (fun a b => concatenate S16x8x513x513 3 [⟨S16x8x513x1, a⟩, ⟨S16x8x513x512, b⟩] concatenates_S16x8x513x1_S16x8x513x512_S16x8x513x513_d3),
    TRef.unary main_call0.v8 main_call0.v9 (extractStridedSlice S16x8x513x1 ![0, 0, 0, 512] · slices_S16x8x513x513_S16x8x513x1_0_0_0_512),
    nullary main_cst (constant S_ .f32 0x7F800000#32),
    unary main_cst main_v1 (broadcastInDim S_ ![] bcast_S_S_ : (⟨S_, .f32⟩ : BufTy).Contents (Elt F) → (⟨S_, .f32⟩ : BufTy).Contents (Elt F)),
    binary main_v0 main_v1 main_v2 ((fun x v => Host.reduceWindow FloatOps.minimumf ![1, 1, 2, 2] ![1, 1, 1, 1] ![0, 0, 0, 0] ![0, 0, 0, 0] x v reduceWindows_S16x8x513x513_S16x8x512x512_w1s1p0_0_w1s1p0_0_w2s1p0_0_w2s1p0_0 h_S_) : (⟨S16x8x513x513, .f32⟩ : BufTy).Contents (Elt F) → (⟨S_, .f32⟩ : BufTy).Contents (Elt F) → (⟨S16x8x512x512, .f32⟩ : BufTy).Contents (Elt F)),
    nullary main_c_0 (constantI S_ 32 0#32),
    TRef.unary (.of main_v2 : TRef sig ⟨S16x8x512x512, .f32⟩) main_call1.v0 (extractStridedSlice S16x8x1x512 ![0, 0, 0, 0] · slices_S16x8x512x512_S16x8x1x512_0_0_0_0),
    TRef.unary (.of main_v2 : TRef sig ⟨S16x8x512x512, .f32⟩) main_call1.v1 (extractStridedSlice S16x8x1x512 ![0, 0, 511, 0] · slices_S16x8x512x512_S16x8x1x512_0_0_511_0),
    TRef.unary (.of main_v2 : TRef sig ⟨S16x8x512x512, .f32⟩) main_call1.v2 (extractStridedSlice S16x8x1x512 ![0, 0, 511, 0] · slices_S16x8x512x512_S16x8x1x512_0_0_511_0),
    TRef.unary main_call1.v2 main_call1.call0.v0 (Host.reverse [2]),
    TRef.binary (.of main_v2 : TRef sig ⟨S16x8x512x512, .f32⟩) main_call1.call0.v0 main_call1.v4 (fun a b => concatenate S16x8x513x512 2 [⟨S16x8x512x512, a⟩, ⟨S16x8x1x512, b⟩] concatenates_S16x8x512x512_S16x8x1x512_S16x8x513x512_d2),
    TRef.unary main_call1.v4 main_call1.v5 (extractStridedSlice S16x8x513x1 ![0, 0, 0, 0] · slices_S16x8x513x512_S16x8x513x1_0_0_0_0),
    TRef.unary main_call1.v4 main_call1.v6 (extractStridedSlice S16x8x513x1 ![0, 0, 0, 511] · slices_S16x8x513x512_S16x8x513x1_0_0_0_511),
    TRef.unary main_call1.v4 main_call1.v7 (extractStridedSlice S16x8x513x1 ![0, 0, 0, 511] · slices_S16x8x513x512_S16x8x513x1_0_0_0_511),
    TRef.unary main_call1.v7 main_call1.call1.v0 (Host.reverse [3]),
    TRef.binary main_call1.v4 main_call1.call1.v0 main_call1.v9 (fun a b => concatenate S16x8x513x513 3 [⟨S16x8x513x512, a⟩, ⟨S16x8x513x1, b⟩] concatenates_S16x8x513x512_S16x8x513x1_S16x8x513x513_d3),
    nullary main_cst_1 (constant S_ .f32 0xFF800000#32),
    unary main_cst_1 main_v4 (broadcastInDim S_ ![] bcast_S_S_ : (⟨S_, .f32⟩ : BufTy).Contents (Elt F) → (⟨S_, .f32⟩ : BufTy).Contents (Elt F)),
    binary main_v3 main_v4 main_v5 ((fun x v => Host.reduceWindow FloatOps.maximumf ![1, 1, 2, 2] ![1, 1, 1, 1] ![0, 0, 0, 0] ![0, 0, 0, 0] x v reduceWindows_S16x8x513x513_S16x8x512x512_w1s1p0_0_w1s1p0_0_w2s1p0_0_w2s1p0_0 h_S_) : (⟨S16x8x513x513, .f32⟩ : BufTy).Contents (Elt F) → (⟨S_, .f32⟩ : BufTy).Contents (Elt F) → (⟨S16x8x512x512, .f32⟩ : BufTy).Contents (Elt F)),
    binary main_arg0 main_v5 main_v6 (subf : (⟨S16x8x512x512, .f32⟩ : BufTy).Contents (Elt F) → (⟨S16x8x512x512, .f32⟩ : BufTy).Contents (Elt F) → (⟨S16x8x512x512, .f32⟩ : BufTy).Contents (Elt F)),
    binary main_v6 main_v6 main_v7 (mulf : (⟨S16x8x512x512, .f32⟩ : BufTy).Contents (Elt F) → (⟨S16x8x512x512, .f32⟩ : BufTy).Contents (Elt F) → (⟨S16x8x512x512, .f32⟩ : BufTy).Contents (Elt F)),
    nullary main_cst_2 (constant S_ .f32 0x00000000#32),
    binary main_v7 main_cst_2 main_v8 ((fun x v => Host.reduceAdd x v reducesTo_S16x8x512x512_S_d0_1_2_3 h_S_) : (⟨S16x8x512x512, .f32⟩ : BufTy).Contents (Elt F) → (⟨S_, .f32⟩ : BufTy).Contents (Elt F) → (⟨S_, .f32⟩ : BufTy).Contents (Elt F)),
    nullary main_cst_3 (constant S_ .f32 0x4C000000#32),
    binary main_v8 main_cst_3 main_v9 (Host.divf : (⟨S_, .f32⟩ : BufTy).Contents (Elt F) → (⟨S_, .f32⟩ : BufTy).Contents (Elt F) → (⟨S_, .f32⟩ : BufTy).Contents (Elt F)) ]

set_option maxRecDepth 1024 in
/-- @main is that straight line: the functions' definitions unfolded at their calls, both sides are one chain of
    steps once sequencing is reassociated. -/
theorem main_eq (c : Dev nD) : main (F := F) c = seq ops := by
  simp only [main, fn_pad.body, fn_pad_1.body, fn_flip.body, fn_flip_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., binary_bufs_sub .., unary_bufs_sub ..,
    unary_bufs_sub .., unary_bufs_sub .., unary_bufs_sub .., binary_bufs_sub .., unary_bufs_sub .., nullary_bufs_sub ..,
    unary_bufs_sub .., binary_bufs_sub .., nullary_bufs_sub .., unary_bufs_sub .., unary_bufs_sub .., unary_bufs_sub ..,
    unary_bufs_sub .., binary_bufs_sub .., unary_bufs_sub .., unary_bufs_sub .., unary_bufs_sub .., unary_bufs_sub ..,
    binary_bufs_sub .., nullary_bufs_sub .., unary_bufs_sub .., binary_bufs_sub .., binary_bufs_sub .., binary_bufs_sub ..,
    nullary_bufs_sub .., binary_bufs_sub .., nullary_bufs_sub .., binary_bufs_sub ..⟩

attribute [local irreducible] Host.reduceWindow Host.reduceAdd concatenate extractStridedSlice Host.reverse in
set_option maxHeartbeats 400000 in
/-- What the result buffer holds after the line is the composed term of the argument: each operation's result
    read at its own buffer is its function of its operands' contents, any other buffer keeps what it held, and
    a typed reference's transport along its type equation is the identity at these references. The window
    folds, the sum, the joins, the slices and the reversals stay folded meanwhile: the equation never looks
    inside them. -/
theorem out_eq (V : Valuation τ sig (Elt F)) :
    after ops V (main_v9 : DevRef τ sig) = RefTerm.refOut (V (main_arg0 : DevRef τ sig)) := by
  after_results
  simp only [TRef.ofBuf, TRef.toBuf, cast_eq]
  rfl

/-- No operation of the line writes the argument's buffer. -/
theorem arg0_eq (V : Valuation τ sig (Elt F)) :
    after ops V (main_arg0 : DevRef τ sig) = V (main_arg0 : DevRef τ sig) := by
  after_results

/-- On every device, for any float values, from any memory with zero counters: every weakly fair execution of
    @main terminates with the result at the composed term of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9) = RefTerm.refOut (m ((c.tc : Thread nD τ).loc main_arg0))
      ∧ r.2.mem ((c.tc : Thread nD τ).loc main_arg0) = m ((c.tc : Thread nD τ).loc main_arg0) :=
  (θ_run defs _ _).mono (fun _ h c => ⟨(h c main_v9).trans (out_eq _), (h c main_arg0).trans (arg0_eq _)⟩)
    (run_seq scopedRefs_eq scopedSems_eq defs main (fun _ => ops) main_eq (fun _ => ops_sub) m ρ)

end Cert.ReferenceIdeal.RefRun

end
-- ==== Proof.RefValue.lean ====
/-
  The reference's sum read at the extended reals: the padded arrays at an index are the argument at the clamped
  index, a 2 × 2 window fold of min from +∞ (of max from -∞) is the minimum (maximum) of the four entries, so the
  summand at (b, c, h, w) is the squared difference between map (b, c) and its opening at (h, w).
-/
import proofs.«138548_j24189255811164_1_alg».proof.Proof.RefTerm
import proofs.«138548_j24189255811164_1_alg».proof.Proof.Opening
import proofs.«138548_j24189255811164_1_alg».proof.Proof.SumIdx
import Idealize.ShloMosaic.Lib.Pipeline.Value
import Idealize.ShloMosaic.Lib.IdealHost
import Idealize.ShloMosaic.PureOps.Ideal.Laws

noncomputable section

namespace Cert.ReferenceIdeal.RefValue

open Idealize.ShloMosaic Idealize.ShloMosaic.ValueIdx Cert.ReferenceIdeal Cert.ReferenceIdeal.Gen Cert.Opening

/-! ## The one-pixel pads read at an index

A pad is a concatenation of the array with a one-row (one-column) slice of it, reversed along an axis of size
one, which reverses nothing: the padded array at an index is the array itself at the index moved back by the
pad, the added row (column) reading the edge row (column). -/

section Pads

private theorem rowPadLo_zero (x : FVec Ideal S16x8x512x512 .f32) (b : Fin 16) (c : Fin 8) (w : Fin 512) :
    RefTerm.rowPadLo (F := Ideal) x (ix4 b c (⟨0, by omega⟩ : Fin 513) w) = x (ix4 b c (⟨0, by omega⟩ : Fin 512) w) := by
  unfold RefTerm.rowPadLo
  refine (concatenate_pair_apply_left (t := S16x8x513x512) (s₁ := S16x8x1x512) (s₂ := S16x8x512x512) (2 : Fin 4) _ _ _
    (ix4 b c (⟨0, by omega⟩ : Fin 513) w) rfl (ix4 b c (⟨0, by omega⟩ : Fin 1) w) ?_).trans ?_
  · intro a
    match a with
    | ⟨0, _⟩ => rfl
    | ⟨1, _⟩ => rfl
    | ⟨2, _⟩ => rfl
    | ⟨3, _⟩ => rfl
  · unfold Host.reverse
    refine extractStridedSlice_apply _ _ _ _ (ix4 b c (⟨0, by omega⟩ : Fin 512) w) ?_
    intro a
    match a with
    | ⟨0, _⟩ => rw [if_neg (by decide +revert)]; exact (Nat.zero_add _).symm
    | ⟨1, _⟩ => rw [if_neg (by decide +revert)]; exact (Nat.zero_add _).symm
    | ⟨2, _⟩ => rfl
    | ⟨3, _⟩ => rw [if_neg (by decide +revert)]; exact (Nat.zero_add _).symm

private theorem rowPadLo_succ (x : FVec Ideal S16x8x512x512 .f32) (b : Fin 16) (c : Fin 8) (h : Fin 512) (w : Fin 512) :
    RefTerm.rowPadLo (F := Ideal) x (ix4 b c (⟨h.val + 1, by omega⟩ : Fin 513) w) = x (ix4 b c h w) := by
  unfold RefTerm.rowPadLo
  refine concatenate_pair_apply_right (t := S16x8x513x512) (s₁ := S16x8x1x512) (s₂ := S16x8x512x512) (2 : Fin 4) _ _ _
    (ix4 b c (⟨h.val + 1, by omega⟩ : Fin 513) w) rfl rfl (ix4 b c h w) ?_ ?_
  · intro a ha
    match a with
    | ⟨0, _⟩ => rfl
    | ⟨1, _⟩ => rfl
    | ⟨2, _⟩ => exact absurd rfl ha
    | ⟨3, _⟩ => rfl
  · rfl

private theorem colPadLo_zero (y : FVec Ideal S16x8x513x512 .f32) (b : Fin 16) (c : Fin 8) (h : Fin 513) :
    RefTerm.colPadLo (F := Ideal) y (ix4 b c h (⟨0, by omega⟩ : Fin 513)) = y (ix4 b c h (⟨0, by omega⟩ : Fin 512)) := by
  unfold RefTerm.colPadLo
  refine (concatenate_pair_apply_left (t := S16x8x513x513) (s₁ := S16x8x513x1) (s₂ := S16x8x513x512) (3 : Fin 4) _ _ _
    (ix4 b c h (⟨0, by omega⟩ : Fin 513)) rfl (ix4 b c h (⟨0, by omega⟩ : Fin 1)) ?_).trans ?_
  · intro a
    match a with
    | ⟨0, _⟩ => rfl
    | ⟨1, _⟩ => rfl
    | ⟨2, _⟩ => rfl
    | ⟨3, _⟩ => rfl
  · unfold Host.reverse
    refine extractStridedSlice_apply _ _ _ _ (ix4 b c h (⟨0, by omega⟩ : Fin 512)) ?_
    intro a
    match a with
    | ⟨0, _⟩ => rw [if_neg (by decide +revert)]; exact (Nat.zero_add _).symm
    | ⟨1, _⟩ => rw [if_neg (by decide +revert)]; exact (Nat.zero_add _).symm
    | ⟨2, _⟩ => rw [if_neg (by decide +revert)]; exact (Nat.zero_add _).symm
    | ⟨3, _⟩ => rfl

private theorem colPadLo_succ (y : FVec Ideal S16x8x513x512 .f32) (b : Fin 16) (c : Fin 8) (h : Fin 513) (w : Fin 512) :
    RefTerm.colPadLo (F := Ideal) y (ix4 b c h (⟨w.val + 1, by omega⟩ : Fin 513)) = y (ix4 b c h w) := by
  unfold RefTerm.colPadLo
  refine concatenate_pair_apply_right (t := S16x8x513x513) (s₁ := S16x8x513x1) (s₂ := S16x8x513x512) (3 : Fin 4) _ _ _
    (ix4 b c h (⟨w.val + 1, by omega⟩ : Fin 513)) rfl rfl (ix4 b c h w) ?_ ?_
  · intro a ha
    match a with
    | ⟨0, _⟩ => rfl
    | ⟨1, _⟩ => rfl
    | ⟨2, _⟩ => rfl
    | ⟨3, _⟩ => exact absurd rfl ha
  · rfl

private theorem rowPadHi_lt (x : FVec Ideal S16x8x512x512 .f32) (b : Fin 16) (c : Fin 8) (h : Fin 512) (w : Fin 512) :
    RefTerm.rowPadHi (F := Ideal) x (ix4 b c (⟨h.val, by omega⟩ : Fin 513) w) = x (ix4 b c h w) := by
  unfold RefTerm.rowPadHi
  refine concatenate_pair_apply_left (t := S16x8x513x512) (s₁ := S16x8x512x512) (s₂ := S16x8x1x512) (2 : Fin 4) _ _ _
    (ix4 b c (⟨h.val, by omega⟩ : Fin 513) w) rfl (ix4 b c h w) ?_
  intro a
  match a with
  | ⟨0, _⟩ => rfl
  | ⟨1, _⟩ => rfl
  | ⟨2, _⟩ => rfl
  | ⟨3, _⟩ => rfl

private theorem rowPadHi_last (x : FVec Ideal S16x8x512x512 .f32) (b : Fin 16) (c : Fin 8) (w : Fin 512) :
    RefTerm.rowPadHi (F := Ideal) x (ix4 b c (⟨512, by omega⟩ : Fin 513) w) = x (ix4 b c (⟨511, by omega⟩ : Fin 512) w) := by
  unfold RefTerm.rowPadHi
  refine (concatenate_pair_apply_right (t := S16x8x513x512) (s₁ := S16x8x512x512) (s₂ := S16x8x1x512) (2 : Fin 4) _ _ _
    (ix4 b c (⟨512, by omega⟩ : Fin 513) w) rfl rfl (ix4 b c (⟨0, by omega⟩ : Fin 1) w) ?_ ?_).trans ?_
  · intro a ha
    match a with
    | ⟨0, _⟩ => rfl
    | ⟨1, _⟩ => rfl
    | ⟨2, _⟩ => exact absurd rfl ha
    | ⟨3, _⟩ => rfl
  · rfl
  · unfold Host.reverse
    refine extractStridedSlice_apply _ _ _ _ (ix4 b c (⟨511, by omega⟩ : Fin 512) w) ?_
    intro a
    match a with
    | ⟨0, _⟩ => rw [if_neg (by decide +revert)]; exact (Nat.zero_add _).symm
    | ⟨1, _⟩ => rw [if_neg (by decide +revert)]; exact (Nat.zero_add _).symm
    | ⟨2, _⟩ => rfl
    | ⟨3, _⟩ => rw [if_neg (by decide +revert)]; exact (Nat.zero_add _).symm

private theorem colPadHi_lt (y : FVec Ideal S16x8x513x512 .f32) (b : Fin 16) (c : Fin 8) (h : Fin 513) (w : Fin 512) :
    RefTerm.colPadHi (F := Ideal) y (ix4 b c h (⟨w.val, by omega⟩ : Fin 513)) = y (ix4 b c h w) := by
  unfold RefTerm.colPadHi
  refine concatenate_pair_apply_left (t := S16x8x513x513) (s₁ := S16x8x513x512) (s₂ := S16x8x513x1) (3 : Fin 4) _ _ _
    (ix4 b c h (⟨w.val, by omega⟩ : Fin 513)) rfl (ix4 b c h w) ?_
  intro a
  match a with
  | ⟨0, _⟩ => rfl
  | ⟨1, _⟩ => rfl
  | ⟨2, _⟩ => rfl
  | ⟨3, _⟩ => rfl

private theorem colPadHi_last (y : FVec Ideal S16x8x513x512 .f32) (b : Fin 16) (c : Fin 8) (h : Fin 513) :
    RefTerm.colPadHi (F := Ideal) y (ix4 b c h (⟨512, by omega⟩ : Fin 513)) = y (ix4 b c h (⟨511, by omega⟩ : Fin 512)) := by
  unfold RefTerm.colPadHi
  refine (concatenate_pair_apply_right (t := S16x8x513x513) (s₁ := S16x8x513x512) (s₂ := S16x8x513x1) (3 : Fin 4) _ _ _
    (ix4 b c h (⟨512, by omega⟩ : Fin 513)) rfl rfl (ix4 b c h (⟨0, by omega⟩ : Fin 1)) ?_ ?_).trans ?_
  · intro a ha
    match a with
    | ⟨0, _⟩ => rfl
    | ⟨1, _⟩ => rfl
    | ⟨2, _⟩ => rfl
    | ⟨3, _⟩ => exact absurd rfl ha
  · rfl
  · unfold Host.reverse
    refine extractStridedSlice_apply _ _ _ _ (ix4 b c h (⟨511, by omega⟩ : Fin 512)) ?_
    intro a
    match a with
    | ⟨0, _⟩ => rw [if_neg (by decide +revert)]; exact (Nat.zero_add _).symm
    | ⟨1, _⟩ => rw [if_neg (by decide +revert)]; exact (Nat.zero_add _).symm
    | ⟨2, _⟩ => rw [if_neg (by decide +revert)]; exact (Nat.zero_add _).symm
    | ⟨3, _⟩ => rfl

end Pads

/-! ## A 2 × 2 window fold read at an index

The window shape is (1, 1, 2, 2): four positions, in row-major order (0, 0), (0, 1), (1, 0), (1, 1) on the last
two axes. With stride one and no padding every position is inside the 513 × 513 operand, so the fold at
(b, c, h, w) is four applications of the body, from the initial value, to the operand at (h, w), (h, w + 1),
(h + 1, w), (h + 1, w + 1). -/

section Win
variable {α : Type}

private theorem foldl_finRange_four {β : Type} {n : Nat} (hn : n = 4) (g : β → Fin n → β) (v : β) :
    (List.finRange n).foldl g v
      = g (g (g (g v ⟨0, by omega⟩) ⟨1, by omega⟩) ⟨2, by omega⟩) ⟨3, by omega⟩ := by
  subst hn; rfl

private theorem W22_numel : (⟨4, ![1, 1, 2, 2]⟩ : Shape).numel = 4 := by decide

private theorem W22_pos0 (h : 0 < (⟨4, ![1, 1, 2, 2]⟩ : Shape).numel) :
    (⟨4, ![1, 1, 2, 2]⟩ : Shape).rowMajor.symm ⟨0, h⟩ = ix4 (0 : Fin 1) (0 : Fin 1) (0 : Fin 2) (0 : Fin 2) := by
  rw [Equiv.symm_apply_eq]
  exact Fin.ext (show 0 = ((⟨4, ![1, 1, 2, 2]⟩ : Shape).rowMajor (ix4 (0 : Fin 1) (0 : Fin 1) (0 : Fin 2) (0 : Fin 2))).val by decide)
private theorem W22_pos1 (h : 1 < (⟨4, ![1, 1, 2, 2]⟩ : Shape).numel) :
    (⟨4, ![1, 1, 2, 2]⟩ : Shape).rowMajor.symm ⟨1, h⟩ = ix4 (0 : Fin 1) (0 : Fin 1) (0 : Fin 2) (1 : Fin 2) := by
  rw [Equiv.symm_apply_eq]
  exact Fin.ext (show 1 = ((⟨4, ![1, 1, 2, 2]⟩ : Shape).rowMajor (ix4 (0 : Fin 1) (0 : Fin 1) (0 : Fin 2) (1 : Fin 2))).val by decide)
private theorem W22_pos2 (h : 2 < (⟨4, ![1, 1, 2, 2]⟩ : Shape).numel) :
    (⟨4, ![1, 1, 2, 2]⟩ : Shape).rowMajor.symm ⟨2, h⟩ = ix4 (0 : Fin 1) (0 : Fin 1) (1 : Fin 2) (0 : Fin 2) := by
  rw [Equiv.symm_apply_eq]
  exact Fin.ext (show 2 = ((⟨4, ![1, 1, 2, 2]⟩ : Shape).rowMajor (ix4 (0 : Fin 1) (0 : Fin 1) (1 : Fin 2) (0 : Fin 2))).val by decide)
private theorem W22_pos3 (h : 3 < (⟨4, ![1, 1, 2, 2]⟩ : Shape).numel) :
    (⟨4, ![1, 1, 2, 2]⟩ : Shape).rowMajor.symm ⟨3, h⟩ = ix4 (0 : Fin 1) (0 : Fin 1) (1 : Fin 2) (1 : Fin 2) := by
  rw [Equiv.symm_apply_eq]
  exact Fin.ext (show 3 = ((⟨4, ![1, 1, 2, 2]⟩ : Shape).rowMajor (ix4 (0 : Fin 1) (0 : Fin 1) (1 : Fin 2) (1 : Fin 2))).val by decide)

/-- A window position inside the operand reads the operand there. -/
private theorem dite_read {s : Shape} (X : s.Idx → α) (v : α) (lo p : Fin s.rank → ℕ) (k : s.Idx)
    (hk : ∀ a, p a = lo a + (k a).val) :
    (if hin : ∀ a, lo a ≤ p a ∧ p a - lo a < s.size a then X (fun a => ⟨p a - lo a, (hin a).2⟩) else v) = X k := by
  have hin : ∀ a, lo a ≤ p a ∧ p a - lo a < s.size a := fun a => by
    have := (k a).isLt; rw [hk a]; omega
  rw [dif_pos hin]
  exact congrArg X (funext fun a => Fin.ext (by show p a - lo a = (k a).val; rw [hk a]; omega))

private theorem reduceWindow_apply (f : α → α → α) (X : S16x8x513x513.Idx → α) (init : S_.Idx → α)
    (b : Fin 16) (c : Fin 8) (h w : Fin 512) :
    Host.reduceWindow f ![1, 1, 2, 2] ![1, 1, 1, 1] ![0, 0, 0, 0] ![0, 0, 0, 0] X init
      reduceWindows_S16x8x513x513_S16x8x512x512_w1s1p0_0_w1s1p0_0_w2s1p0_0_w2s1p0_0 h_S_ (ix4 b c h w)
    = f (f (f (f (init (Shape.Idx.first h_S_))
          (X (ix4 b c (⟨h.val, by omega⟩ : Fin 513) (⟨w.val, by omega⟩ : Fin 513))))
          (X (ix4 b c (⟨h.val, by omega⟩ : Fin 513) (⟨w.val + 1, by omega⟩ : Fin 513))))
          (X (ix4 b c (⟨h.val + 1, by omega⟩ : Fin 513) (⟨w.val, by omega⟩ : Fin 513))))
          (X (ix4 b c (⟨h.val + 1, by omega⟩ : Fin 513) (⟨w.val + 1, by omega⟩ : Fin 513))) := by
  unfold Host.reduceWindow
  simp only []
  rw [foldl_finRange_four W22_numel]
  refine congrArg₂ f (congrArg₂ f (congrArg₂ f (congrArg (f _) ?_) ?_) ?_) ?_
  · refine dite_read (s := S16x8x513x513) X _ _ _ _ fun a => ?_
    rw [W22_pos0]
    match a with
    | ⟨0, _⟩ => show b.val * 1 + 0 = 0 + b.val; omega
    | ⟨1, _⟩ => show c.val * 1 + 0 = 0 + c.val; omega
    | ⟨2, _⟩ => show h.val * 1 + 0 = 0 + h.val; omega
    | ⟨3, _⟩ => show w.val * 1 + 0 = 0 + w.val; omega
  · refine dite_read (s := S16x8x513x513) X _ _ _ _ fun a => ?_
    rw [W22_pos1]
    match a with
    | ⟨0, _⟩ => show b.val * 1 + 0 = 0 + b.val; omega
    | ⟨1, _⟩ => show c.val * 1 + 0 = 0 + c.val; omega
    | ⟨2, _⟩ => show h.val * 1 + 0 = 0 + h.val; omega
    | ⟨3, _⟩ => show w.val * 1 + 1 = 0 + (w.val + 1); omega
  · refine dite_read (s := S16x8x513x513) X _ _ _ _ fun a => ?_
    rw [W22_pos2]
    match a with
    | ⟨0, _⟩ => show b.val * 1 + 0 = 0 + b.val; omega
    | ⟨1, _⟩ => show c.val * 1 + 0 = 0 + c.val; omega
    | ⟨2, _⟩ => show h.val * 1 + 1 = 0 + (h.val + 1); omega
    | ⟨3, _⟩ => show w.val * 1 + 0 = 0 + w.val; omega
  · refine dite_read (s := S16x8x513x513) X _ _ _ _ fun a => ?_
    rw [W22_pos3]
    match a with
    | ⟨0, _⟩ => show b.val * 1 + 0 = 0 + b.val; omega
    | ⟨1, _⟩ => show c.val * 1 + 0 = 0 + c.val; omega
    | ⟨2, _⟩ => show h.val * 1 + 1 = 0 + (h.val + 1); omega
    | ⟨3, _⟩ => show w.val * 1 + 1 = 0 + (w.val + 1); omega

end Win

/-! ## Erosion, dilation, the squared difference, the sum -/

section Values

private theorem rowPadLo_apply (x : FVec Ideal S16x8x512x512 .f32) (b : Fin 16) (c : Fin 8) (h' : Fin 513) (w : Fin 512)
    (k : Fin 512) (hk : k.val = h'.val - 1) :
    RefTerm.rowPadLo (F := Ideal) x (ix4 b c h' w) = x (ix4 b c k w) := by
  by_cases h0 : h'.val = 0
  · have e1 : h' = ⟨0, by omega⟩ := Fin.ext h0
    have e2 : k = ⟨0, by omega⟩ := Fin.ext (by show k.val = 0; omega)
    rw [e1, e2]
    exact rowPadLo_zero x b c w
  · have e1 : h' = ⟨k.val + 1, by omega⟩ := Fin.ext (by show h'.val = k.val + 1; omega)
    rw [e1]
    exact rowPadLo_succ x b c k w

private theorem colPadLo_apply (y : FVec Ideal S16x8x513x512 .f32) (b : Fin 16) (c : Fin 8) (h : Fin 513) (w' : Fin 513)
    (k : Fin 512) (hk : k.val = w'.val - 1) :
    RefTerm.colPadLo (F := Ideal) y (ix4 b c h w') = y (ix4 b c h k) := by
  by_cases h0 : w'.val = 0
  · have e1 : w' = ⟨0, by omega⟩ := Fin.ext h0
    have e2 : k = ⟨0, by omega⟩ := Fin.ext (by show k.val = 0; omega)
    rw [e1, e2]
    exact colPadLo_zero y b c h
  · have e1 : w' = ⟨k.val + 1, by omega⟩ := Fin.ext (by show w'.val = k.val + 1; omega)
    rw [e1]
    exact colPadLo_succ y b c h k

private theorem rowPadHi_apply (x : FVec Ideal S16x8x512x512 .f32) (b : Fin 16) (c : Fin 8) (h' : Fin 513) (w : Fin 512)
    (k : Fin 512) (hk : k.val = min h'.val 511) :
    RefTerm.rowPadHi (F := Ideal) x (ix4 b c h' w) = x (ix4 b c k w) := by
  by_cases hl : h'.val < 512
  · have e1 : h' = ⟨k.val, by omega⟩ := Fin.ext (by show h'.val = k.val; omega)
    rw [e1]
    exact rowPadHi_lt x b c k w
  · have e1 : h' = ⟨512, by omega⟩ := Fin.ext (by have := h'.isLt; show h'.val = 512; omega)
    have e2 : k = ⟨511, by omega⟩ := Fin.ext (by have := h'.isLt; show k.val = 511; omega)
    rw [e1, e2]
    exact rowPadHi_last x b c w

private theorem colPadHi_apply (y : FVec Ideal S16x8x513x512 .f32) (b : Fin 16) (c : Fin 8) (h : Fin 513) (w' : Fin 513)
    (k : Fin 512) (hk : k.val = min w'.val 511) :
    RefTerm.colPadHi (F := Ideal) y (ix4 b c h w') = y (ix4 b c h k) := by
  by_cases hl : w'.val < 512
  · have e1 : w' = ⟨k.val, by omega⟩ := Fin.ext (by show w'.val = k.val; omega)
    rw [e1]
    exact colPadHi_lt y b c h k
  · have e1 : w' = ⟨512, by omega⟩ := Fin.ext (by have := w'.isLt; show w'.val = 512; omega)
    have e2 : k = ⟨511, by omega⟩ := Fin.ext (by have := w'.isLt; show k.val = 511; omega)
    rw [e1, e2]
    exact colPadHi_last y b c h

/-- The low-padded array at a padded index is the argument at the coordinates one lower, clamped at the edge. -/
private theorem padLo_apply (x : FVec Ideal S16x8x512x512 .f32) (b : Fin 16) (c : Fin 8) (h' w' : Fin 513)
    (kh kw : Fin 512) (hkh : kh.val = h'.val - 1) (hkw : kw.val = w'.val - 1) :
    RefTerm.colPadLo (F := Ideal) (RefTerm.rowPadLo x) (ix4 b c h' w') = x (ix4 b c kh kw) :=
  (colPadLo_apply _ b c h' w' kw hkw).trans (rowPadLo_apply x b c h' kw kh hkh)

/-- The high-padded array at a padded index is the argument at the same coordinates, clamped at the edge. -/
private theorem padHi_apply (x : FVec Ideal S16x8x512x512 .f32) (b : Fin 16) (c : Fin 8) (h' w' : Fin 513)
    (kh kw : Fin 512) (hkh : kh.val = min h'.val 511) (hkw : kw.val = min w'.val 511) :
    RefTerm.colPadHi (F := Ideal) (RefTerm.rowPadHi x) (ix4 b c h' w') = x (ix4 b c kh kw) :=
  (colPadHi_apply _ b c h' w' kw hkw).trans (rowPadHi_apply x b c h' kw kh hkh)

private theorem ofBits_pinf : Ideal.ofBits .f32 0x7F800000#32 = ⊤ := by simp [Ideal.ofBits, Ideal.ieee]
private theorem ofBits_ninf : Ideal.ofBits .f32 0xFF800000#32 = ⊥ := by simp [Ideal.ofBits, Ideal.ieee]

private theorem erode_apply (x : FVec Ideal S16x8x512x512 .f32) (b : Fin 16) (c : Fin 8) (h w : Fin 512) :
    RefTerm.erode (F := Ideal) x (ix4 b c h w) = ero (fun h w => x (ix4 b c h w)) h w := by
  unfold RefTerm.erode
  rw [reduceWindow_apply]
  rw [padLo_apply x b c _ _ (prv h) (prv w) rfl rfl, padLo_apply x b c _ _ (prv h) w rfl rfl,
    padLo_apply x b c _ _ h (prv w) rfl rfl, padLo_apply x b c _ _ h w rfl rfl]
  rw [broadcastInDim_scalar_apply, constant_apply, ofBits_pinf]
  simp only [Ideal.minimumf_def]
  unfold ero
  rw [min_top_left]
  ac_rfl

private theorem dilate_apply (e : FVec Ideal S16x8x512x512 .f32) (b : Fin 16) (c : Fin 8) (h w : Fin 512) :
    RefTerm.dilate (F := Ideal) e (ix4 b c h w) = dil (fun h w => e (ix4 b c h w)) h w := by
  unfold RefTerm.dilate
  rw [reduceWindow_apply]
  have hh := h.isLt
  have hw := w.isLt
  rw [padHi_apply e b c _ _ h w (by show h.val = min h.val 511; omega) (by show w.val = min w.val 511; omega),
    padHi_apply e b c _ _ h (nxt w) (by show h.val = min h.val 511; omega) rfl,
    padHi_apply e b c _ _ (nxt h) w rfl (by show w.val = min w.val 511; omega),
    padHi_apply e b c _ _ (nxt h) (nxt w) rfl rfl]
  rw [broadcastInDim_scalar_apply, constant_apply, ofBits_ninf]
  simp only [Ideal.maximumf_def]
  unfold dil
  rw [max_bot_left]
  ac_rfl

private theorem refSq_apply (x : FVec Ideal S16x8x512x512 .f32) (b : Fin 16) (c : Fin 8) (h w : Fin 512) :
    RefTerm.refSq (F := Ideal) x (ix4 b c h w) = sqd (fun h w => x (ix4 b c h w)) h w := by
  have hd : RefTerm.dilate (F := Ideal) (RefTerm.erode x) (ix4 b c h w) = dil (ero fun h w => x (ix4 b c h w)) h w := by
    rw [dilate_apply]
    exact congrArg (fun e => dil e h w) (funext fun h => funext fun w => erode_apply x b c h w)
  unfold RefTerm.refSq
  rw [mulf_apply, subf_apply, hd]
  rfl

end Values

theorem refSum_eq (x : FVec Ideal S16x8x512x512 .f32) :
    RefTerm.refSum (F := Ideal) x = fun _ => total4 x := by
  funext j
  unfold RefTerm.refSum
  rw [hostReduceAdd_apply, Ideal.hostReduceAdd_total _ (fun b => b.elim0), constant_apply, Ideal.ofBits_zero_f32, zero_add,
    Cert.SumIdx.sum_idx4]
  unfold total4 mapSum
  refine Finset.sum_congr rfl fun b _ => Finset.sum_congr rfl fun c _ => Finset.sum_congr rfl fun h _ =>
    Finset.sum_congr rfl fun w _ => ?_
  exact refSq_apply x b c h w

end Cert.ReferenceIdeal.RefValue

end
-- ==== Proof.lean ====
/-
  The mean squared difference between a stack of 16 × 8 maps and their grey opening by a 2 × 2 flat element,
  computed by a kernel and by a reference; the two are one function over the extended reals.

  The opening of a map is an erosion (a minimum over the window {h-1, h} × {w-1, w}) followed by a dilation (a
  maximum over {h, h+1} × {w, w+1}), a coordinate that leaves the map clamped to the edge. The reference pads
  each map by one pixel symmetrically — which repeats the edge pixel — and takes 2 × 2 window minima and maxima;
  the kernel builds the shifted copies of a block of two maps by slicing and concatenating and takes four-way
  minima and maxima: index by index both read the same four entries, and min and max on a linear order are
  associative and commutative. The reference then adds the squared differences over all axes at once. The kernel
  walks the 128 maps two at a time, in two halves of 32 steps; each half keeps a running sum at one entry of its
  accumulator block, the two blocks are written back, and the host adds the array up. Addition of extended reals
  is commutative and associative, so both sums are the sum over all maps of each map's sum; both divide it by the
  same constant.

  The three frames: the kernel's two are the generated frame certificates; the reference's is its run with the
  result dropped. The idealization rewrote nothing, so there is nothing to preserve.
-/
import proofs.«138548_j24189255811164_1_alg».proof.Defs
import proofs.«138548_j24189255811164_1_alg».proof.Proof.Gen.Kernel
import proofs.«138548_j24189255811164_1_alg».proof.Proof.Gen.Kernel.Frame
import proofs.«138548_j24189255811164_1_alg».proof.Proof.Gen.KernelIdeal
import proofs.«138548_j24189255811164_1_alg».proof.Proof.Gen.KernelIdeal.Frame
import proofs.«138548_j24189255811164_1_alg».proof.Proof.Gen.ReferenceIdeal
import proofs.«138548_j24189255811164_1_alg».proof.Proof.Gen.Pre_finite_inputs
import proofs.«138548_j24189255811164_1_alg».proof.Proof.KernelValue
import proofs.«138548_j24189255811164_1_alg».proof.Proof.RefRun
import proofs.«138548_j24189255811164_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end at the mean of the squared differences of the argument's maps from their openings. -/
theorem algebraic : Cert.algebraic_KernelIdeal_ReferenceIdeal := by
  intro m ρ m' ρ' _ hagree
  refine ⟨fun c => Cert.KernelIdeal.KValue.result
    (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [hagree c]
  unfold Cert.ReferenceIdeal.RefTerm.refOut
  rw [Cert.ReferenceIdeal.RefValue.refSum_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
